-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2000000x2 : Shape := ⟨2, ![2000000, 2]⟩
abbrev S2x2000000 : Shape := ⟨2, ![2, 2000000]⟩
abbrev S64x64 : Shape := ⟨2, ![64, 64]⟩
abbrev S64 : Shape := ⟨1, ![64]⟩
abbrev S64x2 : Shape := ⟨2, ![64, 2]⟩
abbrev S_ : Shape := ⟨0, ![]⟩
abbrev S1x2000000 : Shape := ⟨2, ![1, 2000000]⟩
abbrev S2000000 : Shape := ⟨1, ![2000000]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S2000000x2 : S_.BroadcastsInDim S2000000x2 (![] : Fin 0 → Fin S2000000x2.rank)
  reducesTo_S2000000x2_S_d0_1 : S2000000x2.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  slices_S2x2000000_S1x2000000_0_0 : S2x2000000.Slices ![0, 0] S1x2000000
  shapeCasts_S1x2000000_S2000000 : S1x2000000.ShapeCasts S2000000
  bcast_S_S2000000 : S_.BroadcastsInDim S2000000 (![] : Fin 0 → Fin S2000000.rank)
  reducesTo_S2000000_S_d0 : S2000000.ReducesTo [0] S_

variable [Facts]

def fn_part3 {F : FTy → Type} [FloatOps F] (main_arg3 : IVec S2x2000000 32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : IVec S1x2000000 32 := (extractStridedSlice S1x2000000 ![0, 0] · slices_S2x2000000_S1x2000000_0_0) main_arg3
  let main_v55 : IVec S2000000 32 := shapeCast S2000000 main_v54 shapeCasts_S1x2000000_S2000000
  let main_c_20 : IVec S_ 32 := constantI S_ 32 4294867296#32
  let main_v56 : IVec S2000000 32 := broadcastInDim S2000000 ![] bcast_S_S2000000 main_c_20
  let main_v57 : IVec S2000000 1 := cmpi .sge main_v55 main_v56
  let main_c_21 : IVec S_ 1 := constantI S_ 1 1#1
  let main_v58 : IVec S_ 1 := (fun x v => Host.reduce IntOp.andi x v reducesTo_S2000000_S_d0 h_S_) main_v57 main_c_21
  let main_v59 : IVec S_ 1 := andi main_v53 main_v58
  let main_v60 : IVec S1x2000000 32 := (extractStridedSlice S1x2000000 ![0, 0] · slices_S2x2000000_S1x2000000_0_0) main_arg3
  let main_v61 : IVec S2000000 32 := shapeCast S2000000 main_v60 shapeCasts_S1x2000000_S2000000
  let main_c_22 : IVec S_ 32 := constantI S_ 32 100000#32
  let main_v62 : IVec S2000000 32 := broadcastInDim S2000000 ![] bcast_S_S2000000 main_c_22
  let main_v63 : IVec S2000000 1 := cmpi .slt main_v61 main_v62
  let main_c_23 : IVec S_ 1 := constantI S_ 1 1#1
  let main_v64 : IVec S_ 1 := (fun x v => Host.reduce IntOp.andi x v reducesTo_S2000000_S_d0 h_S_) main_v63 main_c_23
  let main_v65 : IVec S_ 1 := andi main_v59 main_v64
  main_v65

def fn_part2 {F : FTy → Type} [FloatOps F] (main_arg3 : IVec S2x2000000 32) (main_arg8 : FVec F S64 .f32) (main_arg9 : FVec F S64 .f32) (main_arg10 : FVec F S64x64 .f32) (main_arg11 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg10
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg3 main_v48 main_v49 main_v50

def fn_part1 {F : FTy → Type} [FloatOps F] (main_arg3 : IVec S2x2000000 32) (main_arg5 : FVec F S64 .f32) (main_arg6 : FVec F S64x2 .f32) (main_arg7 : FVec F S64x64 .f32) (main_arg8 : FVec F S64 .f32) (main_arg9 : FVec F S64 .f32) (main_arg10 : FVec F S64x64 .f32) (main_arg11 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x2 .f32 := Host.absf main_arg6
  let main_cst_8 : FVec F S_ .f32 := constant S_ .f32 0x7F800000#32
  let main_v25 : FVec F S64x2 .f32 := broadcastInDim S64x2 ![] bcast_S_S64x2 main_cst_8
  let main_v26 : IVec S64x2 1 := cmpf .olt main_v24 main_v25
  let main_c_9 : IVec S_ 1 := constantI S_ 1 1#1
  let main_v27 : IVec S_ 1 := (fun x v => Host.reduce IntOp.andi x v reducesTo_S64x2_S_d0_1 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg3 main_arg8 main_arg9 main_arg10 main_arg11 main_v33

def fn {F : FTy → Type} [FloatOps F] (main_arg0 : FVec F S100000x64 .f32) (main_arg1 : FVec F S100000x64 .f32) (main_arg2 : FVec F S2000000x2 .f32) (main_arg3 : IVec S2x2000000 32) (main_arg4 : FVec F S64x64 .f32) (main_arg5 : FVec F S64 .f32) (main_arg6 : FVec F S64x2 .f32) (main_arg7 : FVec F S64x64 .f32) (main_arg8 : FVec F S64 .f32) (main_arg9 : FVec F S64 .f32) (main_arg10 : FVec F S64x64 .f32) (main_arg11 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S2000000x2 .f32 := Host.absf main_arg2
  let main_cst_2 : FVec F S_ .f32 := constant S_ .f32 0x7F800000#32
  let main_v10 : FVec F S2000000x2 .f32 := broadcastInDim S2000000x2 ![] bcast_S_S2000000x2 main_cst_2
  let main_v11 : IVec S2000000x2 1 := cmpf .olt main_v9 main_v10
  let main_c_3 : IVec S_ 1 := constantI S_ 1 1#1
  let main_v12 : IVec S_ 1 := (fun x v => Host.reduce IntOp.andi x v reducesTo_S2000000x2_S_d0_1 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg3 main_arg5 main_arg6 main_arg7 main_arg8 main_arg9 main_arg10 main_arg11 main_v13 main_v16
-- ==== Kernel.lean ====
abbrev S100000x64 : Shape := ⟨2, ![100000, 64]⟩
abbrev S2000000x2 : Shape := ⟨2, ![2000000, 2]⟩
abbrev S2x2000000 : Shape := ⟨2, ![2, 2000000]⟩
abbrev S64x64 : Shape := ⟨2, ![64, 64]⟩
abbrev S64 : Shape := ⟨1, ![64]⟩
abbrev S64x2 : Shape := ⟨2, ![64, 2]⟩
abbrev S1x2000000 : Shape := ⟨2, ![1, 2000000]⟩
abbrev S2000000 : Shape := ⟨1, ![2000000]⟩
abbrev S1x64 : Shape := ⟨2, ![1, 64]⟩
abbrev S_ : Shape := ⟨0, ![]⟩
abbrev S10000x64 : Shape := ⟨2, ![10000, 64]⟩
abbrev S2x64 : Shape := ⟨2, ![2, 64]⟩
abbrev S2000000x64 : Shape := ⟨2, ![2000000, 64]⟩
abbrev S2000000x1 : Shape := ⟨2, ![2000000, 1]⟩
abbrev S1 : Shape := ⟨1, ![1]⟩
abbrev S1x1 : Shape := ⟨2, ![1, 1]⟩
abbrev S8000x64 : Shape := ⟨2, ![8000, 64]⟩
abbrev S8000 : Shape := ⟨1, ![8000]⟩
abbrev S8000x1 : Shape := ⟨2, ![8000, 1]⟩

abbrev nBuf : Space → Nat
  | .hbm => 79
  | .vmem => 20
  | .smem => 0
  | _ => 0

abbrev bufTy : (tb : Table) → Fin (tcTables nBuf tb) → BufTy
  | .hbm, ⟨0, _⟩ => ⟨S100000x64, .f32⟩
  | .hbm, ⟨1, _⟩ => ⟨S100000x64, .f32⟩
  | .hbm, ⟨2, _⟩ => ⟨S2000000x2, .f32⟩
  | .hbm, ⟨3, _⟩ => ⟨S2x2000000, .i32⟩
  | .hbm, ⟨4, _⟩ => ⟨S64x64, .f32⟩
  | .hbm, ⟨5, _⟩ => ⟨S64, .f32⟩
  | .hbm, ⟨6, _⟩ => ⟨S64x2, .f32⟩
  | .hbm, ⟨7, _⟩ => ⟨S64x64, .f32⟩
  | .hbm, ⟨8, _⟩ => ⟨S64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S1x2000000, .i32⟩
  | .hbm, ⟨13, _⟩ => ⟨S2000000, .i32⟩
  | .hbm, ⟨14, _⟩ => ⟨S1x2000000, .i32⟩
  | .hbm, ⟨15, _⟩ => ⟨S2000000, .i32⟩
  | .hbm, ⟨16, _⟩ => ⟨S1x64, .f32⟩
  | .hbm, ⟨17, _⟩ => ⟨S_, .f32⟩
  | .hbm, ⟨18, _⟩ => ⟨S1x64, .f32⟩
  | .hbm, ⟨19, _⟩ => ⟨S100000x64, .f32⟩
  | .hbm, ⟨20, _⟩ => ⟨S100000x64, .f32⟩
  | .hbm, ⟨21, _⟩ => ⟨S2x64, .f32⟩
  | .hbm, ⟨22, _⟩ => ⟨S2000000x64, .f32⟩
  | .hbm, ⟨23, _⟩ => ⟨S_, .i32⟩
  | .hbm, ⟨24, _⟩ => ⟨S2000000, .i32⟩
  | .hbm, ⟨25, _⟩ => ⟨S2000000, .i1⟩
  | .hbm, ⟨26, _⟩ => ⟨S_, .i32⟩
  | .hbm, ⟨27, _⟩ => ⟨S2000000, .i32⟩
  | .hbm, ⟨28, _⟩ => ⟨S2000000, .i32⟩
  | .hbm, ⟨29, _⟩ => ⟨S2000000, .i32⟩
  | .hbm, ⟨30, _⟩ => ⟨S2000000x1, .i32⟩
  | .hbm, ⟨31, _⟩ => ⟨S1, .i32⟩
  | .hbm, ⟨32, _⟩ => ⟨S_, .i32⟩
  | .hbm, ⟨33, _⟩ => ⟨S2000000x1, .i32⟩
  | .hbm, ⟨34, _⟩ => ⟨S2000000x1, .i1⟩
  | .hbm, ⟨35, _⟩ => ⟨S1x1, .i32⟩
  | .hbm, ⟨36, _⟩ => ⟨S2000000x1, .i32⟩
  | .hbm, ⟨37, _⟩ => ⟨S2000000x1, .i1⟩
  | .hbm, ⟨38, _⟩ => ⟨S2000000x1, .i1⟩
  | .hbm, ⟨39, _⟩ => ⟨S_, .i1⟩
  | .hbm, ⟨40, _⟩ => ⟨S2000000, .i1⟩
  | .hbm, ⟨41, _⟩ => ⟨S2000000x64, .f32⟩
  | .hbm, ⟨42, _⟩ => ⟨S2000000x64, .i1⟩
  | .hbm, ⟨43, _⟩ => ⟨S_, .f32⟩
  | .hbm, ⟨44, _⟩ => ⟨S2000000x64, .f32⟩
  | .hbm, ⟨45, _⟩ => ⟨S2000000x64, .f32⟩
  | .hbm, ⟨46, _⟩ => ⟨S_, .i32⟩
  | .hbm, ⟨47, _⟩ => ⟨S2000000, .i32⟩
  | .hbm, ⟨48, _⟩ => ⟨S2000000, .i1⟩
  | .hbm, ⟨49, _⟩ => ⟨S_, .i32⟩
  | .hbm, ⟨50, _⟩ => ⟨S2000000, .i32⟩
  | .hbm, ⟨51, _⟩ => ⟨S2000000, .i32⟩
  | .hbm, ⟨52, _⟩ => ⟨S2000000, .i32⟩
  | .hbm, ⟨53, _⟩ => ⟨S2000000x1, .i32⟩
  | .hbm, ⟨54, _⟩ => ⟨S1, .i32⟩
  | .hbm, ⟨55, _⟩ => ⟨S_, .i32⟩
  | .hbm, ⟨56, _⟩ => ⟨S2000000x1, .i32⟩
  | .hbm, ⟨57, _⟩ => ⟨S2000000x1, .i1⟩
  | .hbm, ⟨58, _⟩ => ⟨S1x1, .i32⟩
  | .hbm, ⟨59, _⟩ => ⟨S2000000x1, .i32⟩
  | .hbm, ⟨60, _⟩ => ⟨S2000000x1, .i1⟩
  | .hbm, ⟨61, _⟩ => ⟨S2000000x1, .i1⟩
  | .hbm, ⟨62, _⟩ => ⟨S_, .i1⟩
  | .hbm, ⟨63, _⟩ => ⟨S2000000, .i1⟩
  | .hbm, ⟨64, _⟩ => ⟨S2000000x64, .f32⟩
  | .hbm, ⟨65, _⟩ => ⟨S2000000x64, .i1⟩
  | .hbm, ⟨66, _⟩ => ⟨S_, .f32⟩
  | .hbm, ⟨67, _⟩ => ⟨S2000000x64, .f32⟩
  | .hbm, ⟨68, _⟩ => ⟨S2000000x64, .f32⟩
  | .hbm, ⟨69, _⟩ => ⟨S2000000x64, .f32⟩
  | .hbm, ⟨70, _⟩ => ⟨S2000000x64, .f32⟩
  | .hbm, ⟨71, _⟩ => ⟨S1x64, .f32⟩
  | .hbm, ⟨72, _⟩ => ⟨S1x64, .f32⟩
  | .hbm, ⟨73, _⟩ => ⟨S1x64, .f32⟩
  | .hbm, ⟨74, _⟩ => ⟨S2000000x64, .f32⟩
  | .hbm, ⟨75, _⟩ => ⟨S_, .f32⟩
  | .hbm, ⟨76, _⟩ => ⟨S100000x64, .f32⟩
  | .hbm, ⟨77, _⟩ => ⟨S2000000x1, .i32⟩
  | .hbm, ⟨78, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S64x64, .f32⟩
  | .local _ .vmem, ⟨9, _⟩ => ⟨S1x64, .f32⟩
  | .local _ .vmem, ⟨10, _⟩ => ⟨S10000x64, .f32⟩
  | .local _ .vmem, ⟨11, _⟩ => ⟨S10000x64, .f32⟩
  | .local _ .vmem, ⟨12, _⟩ => ⟨S8000x64, .f32⟩
  | .local _ .vmem, ⟨13, _⟩ => ⟨S8000x64, .f32⟩
  | .local _ .vmem, ⟨14, _⟩ => ⟨S1x64, .f32⟩
  | .local _ .vmem, ⟨15, _⟩ => ⟨S1x64, .f32⟩
  | .local _ .vmem, ⟨16, _⟩ => ⟨S64x64, .f32⟩
  | .local _ .vmem, ⟨17, _⟩ => ⟨S1x64, .f32⟩
  | .local _ .vmem, ⟨18, _⟩ => ⟨S8000x64, .f32⟩
  | .local _ .vmem, ⟨19, _⟩ => ⟨S8000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_call0_c : Ref sig .tc := ⟨.hbm, 23, rfl⟩
abbrev main_call0_v0 : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_c_1 : Ref sig .tc := ⟨.hbm, 31, rfl⟩
abbrev main_call0_c_2 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_3 : Ref sig .tc := ⟨.hbm, 39, rfl⟩
abbrev main_call0_v12 : Ref sig .tc := ⟨.hbm, 40, rfl⟩
abbrev main_call0_v13 : Ref sig .tc := ⟨.hbm, 41, rfl⟩
abbrev main_call0_v14 : Ref sig .tc := ⟨.hbm, 42, rfl⟩
abbrev main_call0_cst : Ref sig .tc := ⟨.hbm, 43, rfl⟩
abbrev main_call0_v15 : Ref sig .tc := ⟨.hbm, 44, rfl⟩
abbrev main_v10 : Ref sig .tc := ⟨.hbm, 45, rfl⟩
abbrev main_call1_c : Ref sig .tc := ⟨.hbm, 46, rfl⟩
abbrev main_call1_v0 : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_c_1 : Ref sig .tc := ⟨.hbm, 54, rfl⟩
abbrev main_call1_c_2 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_c_3 : Ref sig .tc := ⟨.hbm, 62, rfl⟩
abbrev main_call1_v12 : Ref sig .tc := ⟨.hbm, 63, rfl⟩
abbrev main_call1_v13 : Ref sig .tc := ⟨.hbm, 64, rfl⟩
abbrev main_call1_v14 : Ref sig .tc := ⟨.hbm, 65, rfl⟩
abbrev main_call1_cst : Ref sig .tc := ⟨.hbm, 66, rfl⟩
abbrev main_call1_v15 : Ref sig .tc := ⟨.hbm, 67, rfl⟩
abbrev main_v11 : Ref sig .tc := ⟨.hbm, 68, rfl⟩
abbrev main_v12 : Ref sig .tc := ⟨.hbm, 69, rfl⟩
abbrev main_v13 : Ref sig .tc := ⟨.hbm, 70, rfl⟩
abbrev main_v14 : Ref sig .tc := ⟨.hbm, 71, rfl⟩
abbrev main_v15 : Ref sig .tc := ⟨.hbm, 72, rfl⟩
abbrev main_v16 : Ref sig .tc := ⟨.hbm, 73, rfl⟩
abbrev main_v17 : Ref sig .tc := ⟨.hbm, 74, rfl⟩
abbrev main_cst_0 : Ref sig .tc := ⟨.hbm, 75, rfl⟩
abbrev main_v18 : Ref sig .tc := ⟨.hbm, 76, rfl⟩
abbrev main_v19 : Ref sig .tc := ⟨.hbm, 77, rfl⟩
abbrev main_v20 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg5_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem5_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![250], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S8000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  shapeCasts_S64_S1x64 : S64.ShapeCasts S1x64
  bcast_S_S1x64 : S_.BroadcastsInDim S1x64 (![] : Fin 0 → Fin S1x64.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  transposes_S64x2_S2x64_1_0 : S64x2.Transposes [1, 0] S2x64
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S2000000x1 : S_.BroadcastsInDim S2000000x1 (![] : Fin 0 → Fin S2000000x1.rank)
  bcast_S1_S1x1_1 : S1.BroadcastsInDim S1x1 (![1] : Fin 1 → Fin S1x1.rank)
  bcast_S1x1_S2000000x1_0_1 : S1x1.BroadcastsInDim S2000000x1 (![0, 1] : Fin 2 → Fin S2000000x1.rank)
  reducesTo_S2000000x1_S2000000_d1 : S2000000x1.ReducesTo [1] S2000000
  h_S_ : 0 < S_.numel
  bcast_S2000000_S2000000x64_0 : S2000000.BroadcastsInDim S2000000x64 (![0] : Fin 1 → Fin S2000000x64.rank)
  bcast_S_S2000000x64 : S_.BroadcastsInDim S2000000x64 (![] : Fin 0 → Fin S2000000x64.rank)
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  reduces_S8000x64_S8000 : S8000x64.Reduces [1] S8000
  shapeCasts_S8000_S8000x1 : S8000.ShapeCasts S8000x1
  broadcasts_S8000x1_S8000x64 : S8000x1.Broadcasts S8000x64
  broadcasts_S1x64_S8000x64 : S1x64.Broadcasts S8000x64
  bcast_S_S100000x64 : S_.BroadcastsInDim S100000x64 (![] : Fin 0 → Fin S100000x64.rank)
  dot_S10000x64_S64x64_S10000x64_1_0_0_1_n_n_wf : DotDims.WF S10000x64 S64x64 S10000x64 [1] [0] [0] [1] [] []
  dot_S2000000x2_S2x64_S2000000x64_1_0_0_1_n_n_wf : DotDims.WF S2000000x2 S2x64 S2000000x64 [1] [0] [0] [1] [] []
  gather_S100000x64_S2000000x1_S2000000x64_1_0_n_n_0_1_164_wf : GatherDims.WF S100000x64 S2000000x1 S2000000x64 [1] [0] [] [0] [] 1 ![1, 64]
  dot_S8000x64_S64x64_S8000x64_1_0_0_1_n_n_wf : DotDims.WF S8000x64 S64x64 S8000x64 [1] [0] [0] [1] [] []
  scatter_S100000x64_S2000000x1_S2000000x64_1_0_0_1_wf : ScatterDims.WF S100000x64 S2000000x1 S2000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x64.size a ≤ S2000000x64.size a
  hwx2_0 : ∀ i : grid2.Coords, EltTy.bits .f32 = 32 ∨ (Rect.block (s := S2000000x64) S8000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S8000x64.size a ≤ S2000000x64.size a
  hwx2_5 : ∀ i : grid2.Coords, EltTy.bits .f32 = 32 ∨ (Rect.block (s := S2000000x64) S8000x64.size (cc2_transform_5 i) (hinb2_5 i)).WholeWords (EltTy.packing .f32)

variable [Facts₀]

def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S2000000x2_S2x64_S2000000x64_1_0_0_1_n_n : DotDims S2000000x2 S2x64 S2000000x64 where
  lhsContracting := [1]
  rhsContracting := [0]
  lhsNonContracting := [0]
  rhsNonContracting := [1]
  lhsBatch := []
  rhsBatch := []
  wf := dot_S2000000x2_S2x64_S2000000x64_1_0_0_1_n_n_wf
def gather_S100000x64_S2000000x1_S2000000x64_1_0_n_n_0_1_164 : GatherDims S100000x64 S2000000x1 S2000000x64 where
  offsetDims := [1]
  collapsedSliceDims := [0]
  operandBatchingDims := []
  startIndicesBatchingDims := []
  startIndexMap := [0]
  indexVectorDim := 1
  sliceSizes := ![1, 64]
  wf := gather_S100000x64_S2000000x1_S2000000x64_1_0_n_n_0_1_164_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def scatter_S100000x64_S2000000x1_S2000000x64_1_0_0_1 : ScatterDims S100000x64 S2000000x1 S2000000x64 where
  updateWindowDims := [1]
  insertedWindowDims := [0]
  scatterDimsToOperandDims := [0]
  indexVectorDim := 1
  wf := scatter_S100000x64_S2000000x1_S2000000x64_1_0_0_1_wf

abbrev win0_0 : Pipeline.Window sig grid0 :=
  Pipeline.Window.ofSpec (Memref.whole main_arg1) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v13) S8000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v15) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v16) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v17) S8000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x64 : Shape := ⟨2, ![100000, 64]⟩
abbrev S2000000x2 : Shape := ⟨2, ![2000000, 2]⟩
abbrev S2x2000000 : Shape := ⟨2, ![2, 2000000]⟩
abbrev S64x64 : Shape := ⟨2, ![64, 64]⟩
abbrev S64 : Shape := ⟨1, ![64]⟩
abbrev S64x2 : Shape := ⟨2, ![64, 2]⟩
abbrev S1x2000000 : Shape := ⟨2, ![1, 2000000]⟩
abbrev S2000000 : Shape := ⟨1, ![2000000]⟩
abbrev S1x64 : Shape := ⟨2, ![1, 64]⟩
abbrev S_ : Shape := ⟨0, ![]⟩
abbrev S2000000x1 : Shape := ⟨2, ![2000000, 1]⟩
abbrev S2000000x64 : Shape := ⟨2, ![2000000, 64]⟩
abbrev S2x64 : Shape := ⟨2, ![2, 64]⟩

abbrev nBuf : Space → Nat
  | .hbm => 86
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S100000x64, .f32⟩
  | .hbm, ⟨2, _⟩ => ⟨S2000000x2, .f32⟩
  | .hbm, ⟨3, _⟩ => ⟨S2x2000000, .i32⟩
  | .hbm, ⟨4, _⟩ => ⟨S64x64, .f32⟩
  | .hbm, ⟨5, _⟩ => ⟨S64, .f32⟩
  | .hbm, ⟨6, _⟩ => ⟨S64x2, .f32⟩
  | .hbm, ⟨7, _⟩ => ⟨S64x64, .f32⟩
  | .hbm, ⟨8, _⟩ => ⟨S64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S1x2000000, .i32⟩
  | .hbm, ⟨13, _⟩ => ⟨S2000000, .i32⟩
  | .hbm, ⟨14, _⟩ => ⟨S1x2000000, .i32⟩
  | .hbm, ⟨15, _⟩ => ⟨S2000000, .i32⟩
  | .hbm, ⟨16, _⟩ => ⟨S64x64, .f32⟩
  | .hbm, ⟨17, _⟩ => ⟨S100000x64, .f32⟩
  | .hbm, ⟨18, _⟩ => ⟨S1x64, .f32⟩
  | .hbm, ⟨19, _⟩ => ⟨S100000x64, .f32⟩
  | .hbm, ⟨20, _⟩ => ⟨S100000x64, .f32⟩
  | .hbm, ⟨21, _⟩ => ⟨S_, .i32⟩
  | .hbm, ⟨22, _⟩ => ⟨S2000000, .i32⟩
  | .hbm, ⟨23, _⟩ => ⟨S2000000, .i1⟩
  | .hbm, ⟨24, _⟩ => ⟨S_, .i32⟩
  | .hbm, ⟨25, _⟩ => ⟨S2000000, .i32⟩
  | .hbm, ⟨26, _⟩ => ⟨S2000000, .i32⟩
  | .hbm, ⟨27, _⟩ => ⟨S2000000, .i32⟩
  | .hbm, ⟨28, _⟩ => ⟨S2000000x1, .i32⟩
  | .hbm, ⟨29, _⟩ => ⟨S2000000x64, .f32⟩
  | .hbm, ⟨30, _⟩ => ⟨S64x64, .f32⟩
  | .hbm, ⟨31, _⟩ => ⟨S100000x64, .f32⟩
  | .hbm, ⟨32, _⟩ => ⟨S_, .i32⟩
  | .hbm, ⟨33, _⟩ => ⟨S2000000, .i32⟩
  | .hbm, ⟨34, _⟩ => ⟨S2000000, .i1⟩
  | .hbm, ⟨35, _⟩ => ⟨S_, .i32⟩
  | .hbm, ⟨36, _⟩ => ⟨S2000000, .i32⟩
  | .hbm, ⟨37, _⟩ => ⟨S2000000, .i32⟩
  | .hbm, ⟨38, _⟩ => ⟨S2000000, .i32⟩
  | .hbm, ⟨39, _⟩ => ⟨S2000000x1, .i32⟩
  | .hbm, ⟨40, _⟩ => ⟨S2000000x64, .f32⟩
  | .hbm, ⟨41, _⟩ => ⟨S2x64, .f32⟩
  | .hbm, ⟨42, _⟩ => ⟨S2000000x64, .f32⟩
  | .hbm, ⟨43, _⟩ => ⟨S2000000x64, .f32⟩
  | .hbm, ⟨44, _⟩ => ⟨S2000000x64, .f32⟩
  | .hbm, ⟨45, _⟩ => ⟨S_, .f32⟩
  | .hbm, ⟨46, _⟩ => ⟨S2000000, .f32⟩
  | .hbm, ⟨47, _⟩ => ⟨S2000000x1, .f32⟩
  | .hbm, ⟨48, _⟩ => ⟨S_, .f32⟩
  | .hbm, ⟨49, _⟩ => ⟨S2000000x1, .f32⟩
  | .hbm, ⟨50, _⟩ => ⟨S2000000x1, .f32⟩
  | .hbm, ⟨51, _⟩ => ⟨S2000000x64, .f32⟩
  | .hbm, ⟨52, _⟩ => ⟨S2000000x64, .f32⟩
  | .hbm, ⟨53, _⟩ => ⟨S2000000x64, .f32⟩
  | .hbm, ⟨54, _⟩ => ⟨S_, .f32⟩
  | .hbm, ⟨55, _⟩ => ⟨S2000000, .f32⟩
  | .hbm, ⟨56, _⟩ => ⟨S2000000x1, .f32⟩
  | .hbm, ⟨57, _⟩ => ⟨S_, .f32⟩
  | .hbm, ⟨58, _⟩ => ⟨S2000000x1, .f32⟩
  | .hbm, ⟨59, _⟩ => ⟨S2000000x1, .f32⟩
  | .hbm, ⟨60, _⟩ => ⟨S2000000x64, .f32⟩
  | .hbm, ⟨61, _⟩ => ⟨S2000000x64, .f32⟩
  | .hbm, ⟨62, _⟩ => ⟨S_, .f32⟩
  | .hbm, ⟨63, _⟩ => ⟨S2000000x1, .f32⟩
  | .hbm, ⟨64, _⟩ => ⟨S2000000x1, .f32⟩
  | .hbm, ⟨65, _⟩ => ⟨S2000000x1, .f32⟩
  | .hbm, ⟨66, _⟩ => ⟨S2000000x64, .f32⟩
  | .hbm, ⟨67, _⟩ => ⟨S2000000x64, .f32⟩
  | .hbm, ⟨68, _⟩ => ⟨S1x64, .f32⟩
  | .hbm, ⟨69, _⟩ => ⟨S2000000x64, .f32⟩
  | .hbm, ⟨70, _⟩ => ⟨S2000000x64, .f32⟩
  | .hbm, ⟨71, _⟩ => ⟨S1x64, .f32⟩
  | .hbm, ⟨72, _⟩ => ⟨S2000000x64, .f32⟩
  | .hbm, ⟨73, _⟩ => ⟨S2000000x64, .f32⟩
  | .hbm, ⟨74, _⟩ => ⟨S_, .f32⟩
  | .hbm, ⟨75, _⟩ => ⟨S2000000x64, .f32⟩
  | .hbm, ⟨76, _⟩ => ⟨S2000000x64, .f32⟩
  | .hbm, ⟨77, _⟩ => ⟨S64x64, .f32⟩
  | .hbm, ⟨78, _⟩ => ⟨S2000000x64, .f32⟩
  | .hbm, ⟨79, _⟩ => ⟨S1x64, .f32⟩
  | .hbm, ⟨80, _⟩ => ⟨S2000000x64, .f32⟩
  | .hbm, ⟨81, _⟩ => ⟨S2000000x64, .f32⟩
  | .hbm, ⟨82, _⟩ => ⟨S_, .f32⟩
  | .hbm, ⟨83, _⟩ => ⟨S100000x64, .f32⟩
  | .hbm, ⟨84, _⟩ => ⟨S2000000x1, .i32⟩
  | .hbm, ⟨85, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c : Ref sig .tc := ⟨.hbm, 21, rfl⟩
abbrev main_v9 : Ref sig .tc := ⟨.hbm, 22, rfl⟩
abbrev main_v10 : Ref sig .tc := ⟨.hbm, 23, rfl⟩
abbrev main_c_0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_1 : Ref sig .tc := ⟨.hbm, 32, rfl⟩
abbrev main_v18 : Ref sig .tc := ⟨.hbm, 33, rfl⟩
abbrev main_v19 : Ref sig .tc := ⟨.hbm, 34, rfl⟩
abbrev main_c_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst : Ref sig .tc := ⟨.hbm, 45, rfl⟩
abbrev main_v29 : Ref sig .tc := ⟨.hbm, 46, rfl⟩
abbrev main_v30 : Ref sig .tc := ⟨.hbm, 47, rfl⟩
abbrev main_cst_3 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_4 : Ref sig .tc := ⟨.hbm, 54, rfl⟩
abbrev main_v36 : Ref sig .tc := ⟨.hbm, 55, rfl⟩
abbrev main_v37 : Ref sig .tc := ⟨.hbm, 56, rfl⟩
abbrev main_cst_5 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_6 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_call0_cst : Ref sig .tc := ⟨.hbm, 74, rfl⟩
abbrev main_call0_v0 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_7 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩

abbrev nD : Nat := 1
abbrev τ : Topo := Topo.v7x

variable {F : FTy → Type} [FloatOps F]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S2000000 : S_.BroadcastsInDim S2000000 (![] : Fin 0 → Fin S2000000.rank)
  bcast_S2000000_S2000000x1_0 : S2000000.BroadcastsInDim S2000000x1 (![0] : Fin 1 → Fin S2000000x1.rank)
  transposes_S64x2_S2x64_1_0 : S64x2.Transposes [1, 0] S2x64
  reducesTo_S2000000x64_S2000000_d1 : S2000000x64.ReducesTo [1] S2000000
  h_S_ : 0 < S_.numel
  bcast_S_S2000000x1 : S_.BroadcastsInDim S2000000x1 (![] : Fin 0 → Fin S2000000x1.rank)
  bcast_S2000000x1_S2000000x64_0_1 : S2000000x1.BroadcastsInDim S2000000x64 (![0, 1] : Fin 2 → Fin S2000000x64.rank)
  bcast_S1x64_S2000000x64_0_1 : S1x64.BroadcastsInDim S2000000x64 (![0, 1] : Fin 2 → Fin S2000000x64.rank)
  bcast_S_S2000000x64 : S_.BroadcastsInDim S2000000x64 (![] : Fin 0 → Fin S2000000x64.rank)
  bcast_S_S100000x64 : S_.BroadcastsInDim S100000x64 (![] : Fin 0 → Fin S100000x64.rank)
  dot_S100000x64_S64x64_S100000x64_1_0_0_1_n_n_wf : DotDims.WF S100000x64 S64x64 S100000x64 [1] [0] [0] [1] [] []
  gather_S100000x64_S2000000x1_S2000000x64_1_0_n_n_0_1_164_wf : GatherDims.WF S100000x64 S2000000x1 S2000000x64 [1] [0] [] [0] [] 1 ![1, 64]
  dot_S2000000x2_S2x64_S2000000x64_1_0_0_1_n_n_wf : DotDims.WF S2000000x2 S2x64 S2000000x64 [1] [0] [0] [1] [] []
  dot_S2000000x64_S64x64_S2000000x64_1_0_0_1_n_n_wf : DotDims.WF S2000000x64 S64x64 S2000000x64 [1] [0] [0] [1] [] []
  scatter_S100000x64_S2000000x1_S2000000x64_1_0_0_1_wf : ScatterDims.WF S100000x64 S2000000x1 S2000000x64 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S2000000x1_S2000000x64_1_0_n_n_0_1_164 : GatherDims S100000x64 S2000000x1 S2000000x64 where
  offsetDims := [1]
  collapsedSliceDims := [0]
  operandBatchingDims := []
  startIndicesBatchingDims := []
  startIndexMap := [0]
  indexVectorDim := 1
  sliceSizes := ![1, 64]
  wf := gather_S100000x64_S2000000x1_S2000000x64_1_0_n_n_0_1_164_wf
def dot_S2000000x2_S2x64_S2000000x64_1_0_0_1_n_n : DotDims S2000000x2 S2x64 S2000000x64 where
  lhsContracting := [1]
  rhsContracting := [0]
  lhsNonContracting := [0]
  rhsNonContracting := [1]
  lhsBatch := []
  rhsBatch := []
  wf := dot_S2000000x2_S2x64_S2000000x64_1_0_0_1_n_n_wf
def dot_S2000000x64_S64x64_S2000000x64_1_0_0_1_n_n : DotDims S2000000x64 S64x64 S2000000x64 where
  lhsContracting := [1]
  rhsContracting := [0]
  lhsNonContracting := [0]
  rhsNonContracting := [1]
  lhsBatch := []
  rhsBatch := []
  wf := dot_S2000000x64_S64x64_S2000000x64_1_0_0_1_n_n_wf
def scatter_S100000x64_S2000000x1_S2000000x64_1_0_0_1 : ScatterDims S100000x64 S2000000x1 S2000000x64 where
  updateWindowDims := [1]
  insertedWindowDims := [0]
  scatterDimsToOperandDims := [0]
  indexVectorDim := 1
  wf := scatter_S100000x64_S2000000x1_S2000000x64_1_0_0_1_wf

class Facts : Prop extends Facts₀ where

variable [Facts]
-- ==== Proof.GatherFill.lean ====
/-
  A gather of rows that fills out-of-range rows: what the program's row lookup computes, as one pure function.

  Given a table `x : [100000, 64]` and a vector `idx` of 2,000,000 signed 32-bit row numbers: a negative number is
  first moved up by 100000 (`wrapped`); the table's rows are gathered at the wrapped numbers (the gather itself clamps
  a start into range); and a row whose wrapped number is outside `[0, 99999]` is replaced by the fill word, a
  not-a-number pattern. On the numbers that ARE in range this is the plain gather at the wrapped numbers.
-/
import proofs.«404003_j32538672234882_3_alg».proof.Proof.Gen.KernelIdeal

noncomputable section

namespace Cert.KernelIdeal.GatherFill

open Cert.KernelIdeal Cert.KernelIdeal.Gen Idealize.ShloMosaic

variable {F : FTy → Type} [FloatOps F]

/-- A negative row number moved up by the table's height, a non-negative one kept. -/
def wrapped (idx : IVec S2000000 32) : IVec S2000000 32 :=
  select (cmpi .slt idx (broadcastInDim S2000000 ![] bcast_S_S2000000 (constantI S_ 32 0#32)))
    (addi idx (broadcastInDim S2000000 ![] bcast_S_S2000000 (constantI S_ 32 100000#32))) idx

/-- The wrapped row numbers as a column `[2000000, 1]`: the gather's start indices. -/
def column (idx : IVec S2000000 32) : IVec S2000000x1 32 :=
  broadcastInDim S2000000x1 ![0] bcast_S2000000_S2000000x1_0 (wrapped idx)

/-- Per row: is the wrapped number inside `[0, 99999]`? -/
def inRange (idx : IVec S2000000 32) : IVec S2000000 1 :=
  Host.reduce IntOp.andi
    (andi (cmpi .sge (column idx) (broadcastInDim S2000000x1 ![] bcast_S_S2000000x1 (constantI S_ 32 0#32)))
      (cmpi .sle (column idx) (broadcastInDim S2000000x1 ![0, 1] bcast_S1x1_S2000000x1_0_1
        (broadcastInDim S1x1 ![1] bcast_S1_S1x1_1 (constantI S1 32 99999#32)))))
    (constantI S_ 1 1#1) reducesTo_S2000000x1_S2000000_d1 h_S_

/-- The rows of `x` at the wrapped numbers, out-of-range rows replaced by the fill word. -/
def gatherFill (x : FVec F S100000x64 .f32) (idx : IVec S2000000 32) : FVec F S2000000x64 .f32 :=
  select (broadcastInDim S2000000x64 ![0] bcast_S2000000_S2000000x64_0 (inRange idx))
    (Host.gather gather_S100000x64_S2000000x1_S2000000x64_1_0_n_n_0_1_164 x (column idx))
    (broadcastInDim S2000000x64 ![] bcast_S_S2000000x64 (constant S_ .f32 0x7FC00000#32))

end Cert.KernelIdeal.GatherFill

end
-- ==== Proof.EdgeIdx.lean ====
/-
  The two rows of the edge list: row 0 holds each edge's source row number, row 1 its target row number.
  Each is a slice of the `[2, 2000000]` array reshaped to a vector; at an edge it is the array's entry in that row.
-/
import proofs.«404003_j32538672234882_3_alg».proof.Proof.Gen.KernelIdeal
import Idealize.ShloMosaic.Lib.ValueIdx
import Idealize.ShloMosaic.Lib.Pipeline.Value

noncomputable section

namespace Cert.KernelIdeal.EdgeIdx

open Cert.KernelIdeal Cert.KernelIdeal.Gen Idealize.ShloMosaic Idealize.ShloMosaic.ValueIdx

/-- The source row numbers: row 0 of the edge list, as a vector. -/
def srcIdx (x3 : IVec S2x2000000 32) : IVec S2000000 32 :=
  shapeCast S2000000 (extractStridedSlice S1x2000000 ![0, 0] x3 slices_S2x2000000_S1x2000000_0_0) shapeCasts_S1x2000000_S2000000

/-- The target row numbers: row 1 of the edge list, as a vector. -/
def dstIdx (x3 : IVec S2x2000000 32) : IVec S2000000 32 :=
  shapeCast S2000000 (extractStridedSlice S1x2000000 ![1, 0] x3 slices_S2x2000000_S1x2000000_1_0) shapeCasts_S1x2000000_S2000000

/-- Edge `e`'s source row number is the edge list's entry `(0, e)`. -/
theorem srcIdx_apply (x3 : IVec S2x2000000 32) (e : Fin 2000000) : srcIdx x3 (ix1 e) = x3 (ix2 (0 : Fin 2) e) := by
  unfold srcIdx
  -- the reshape keeps the row-major position: position `e` of the vector is position `0 * 2000000 + e` of the one-row array
  refine (shapeCast_apply _ shapeCasts_S1x2000000_S2000000 (ix1 e) (ix2 (0 : Fin 1) e) ?_).trans ?_
  · rewrite [Shape.rowMajor_val_two, Shape.rowMajor_val_one]
    have he : e.val < 2000000 := e.isLt
    show (0 : Nat) * 2000000 + e.val = e.val
    omega
  -- the slice starts at row 0, column 0: entry `(0, e)` of the slice is entry `(0, e)` of the edge list
  · exact extractStridedSlice_apply ![0, 0] x3 slices_S2x2000000_S1x2000000_0_0 (ix2 (0 : Fin 1) e) (ix2 (0 : Fin 2) e)
      (fun a => match a with
        | ⟨0, _⟩ => by show (0 : Nat) = 0 + 0; omega
        | ⟨1, _⟩ => by show e.val = 0 + e.val; omega)

/-- Edge `e`'s target row number is the edge list's entry `(1, e)`. -/
theorem dstIdx_apply (x3 : IVec S2x2000000 32) (e : Fin 2000000) : dstIdx x3 (ix1 e) = x3 (ix2 (1 : Fin 2) e) := by
  unfold dstIdx
  -- the reshape keeps the row-major position, as for the source row
  refine (shapeCast_apply _ shapeCasts_S1x2000000_S2000000 (ix1 e) (ix2 (0 : Fin 1) e) ?_).trans ?_
  · rewrite [Shape.rowMajor_val_two, Shape.rowMajor_val_one]
    have he : e.val < 2000000 := e.isLt
    show (0 : Nat) * 2000000 + e.val = e.val
    omega
  -- the slice starts at row 1, column 0: entry `(0, e)` of the slice is entry `(1, e)` of the edge list
  · exact extractStridedSlice_apply ![1, 0] x3 slices_S2x2000000_S1x2000000_1_0 (ix2 (0 : Fin 1) e) (ix2 (1 : Fin 2) e)
      (fun a => match a with
        | ⟨0, _⟩ => by show (1 : Nat) = 1 + 0; omega
        | ⟨1, _⟩ => by show e.val = 0 + e.val; omega)

end Cert.KernelIdeal.EdgeIdx

end
-- ==== Proof.HostChain.lean ====
/-
  The program's buffers read back through its run: what each kernel launch finds in its operands, and what the
  result buffer holds, as terms of the launch memory and of the three launches' output arrays.

  Launch 0 projects the right-hand node features (weight `W_left`, bias `b_left` as a row); launch 1 the left-hand
  ones (weight `W_right`, a zero row as bias). Between launch 1 and launch 2 the host builds the per-edge
  pre-activation: the rows of the two projections looked up at the target and source row numbers, plus the edge
  features through their small linear layer. Launch 2 transforms it row by row; the host then accumulates the rows
  onto the target nodes.
-/
import proofs.«404003_j32538672234882_3_alg».proof.Proof.Gen.KernelIdeal.Frame
import proofs.«404003_j32538672234882_3_alg».proof.Proof.GatherFill
import proofs.«404003_j32538672234882_3_alg».proof.Proof.EdgeIdx
import Idealize.ShloMosaic.Lib.StableHlo.Run

noncomputable section

namespace Cert.KernelIdeal.HostChain

open Cert.KernelIdeal Cert.KernelIdeal.Gen Idealize.ShloMosaic Idealize.ShloMosaic.TcCoe Idealize.SL.Sem
open Cert.KernelIdeal.GatherFill Cert.KernelIdeal.EdgeIdx

variable (m : (ℓ : Loc nD τ sig) → Buf (Elt Ideal) ℓ) (ρ : Dev nD → PrngReg) (c : Dev nD)

/-- The argument arrays at launch, by their literal types. -/
abbrev a0 : FVec Ideal S100000x64 .f32 := m ((c : Thread nD τ).loc main_arg0)
abbrev a1 : FVec Ideal S100000x64 .f32 := m ((c : Thread nD τ).loc main_arg1)
abbrev a2 : FVec Ideal S2000000x2 .f32 := m ((c : Thread nD τ).loc main_arg2)
abbrev a3 : IVec S2x2000000 32 := m ((c : Thread nD τ).loc main_arg3)
abbrev a4 : FVec Ideal S64x64 .f32 := m ((c : Thread nD τ).loc main_arg4)
abbrev a5 : FVec Ideal S64 .f32 := m ((c : Thread nD τ).loc main_arg5)
abbrev a6 : FVec Ideal S64x2 .f32 := m ((c : Thread nD τ).loc main_arg6)
abbrev a7 : FVec Ideal S64x64 .f32 := m ((c : Thread nD τ).loc main_arg7)
abbrev a8 : FVec Ideal S64 .f32 := m ((c : Thread nD τ).loc main_arg8)
abbrev a9 : FVec Ideal S64 .f32 := m ((c : Thread nD τ).loc main_arg9)
abbrev a10 : FVec Ideal S64x64 .f32 := m ((c : Thread nD τ).loc main_arg10)
abbrev a11 : FVec Ideal S64 .f32 := m ((c : Thread nD τ).loc main_arg11)

/-- Launch 0's output array after its run: the projected right-hand node features. -/
abbrev projI : FVec Ideal S100000x64 .f32 := (dat0 (V1 m ρ) c).arrAt 3 cfg0.N
/-- Launch 1's output array after its run: the projected left-hand node features. -/
abbrev projJ : FVec Ideal S100000x64 .f32 := (dat1 (V2 m ρ) c).arrAt 3 cfg1.N
/-- Launch 2's output array after its run: the per-edge messages. -/
abbrev msgs : FVec Ideal S2000000x64 .f32 := (dat2 (V7 m ρ) c).arrAt 5 cfg2.N
/-- The edge features through their linear layer, a host matrix product. -/
abbrev edgeLin : FVec Ideal S2000000x64 .f32 :=
  Host.dotGeneral dot_S2000000x2_S2x64_S2000000x64_1_0_0_1_n_n none (a2 m c) (transpose S2x64 [1, 0] (a6 m c) transposes_S64x2_S2x64_1_0)

/-! ## Typed references

A typed reference moves contents between the value's type and its buffer's type along an equation of types; moving
there and back is the identity. -/

theorem ofBuf_toBuf {T : BufTy} (x : StableHlo.TRef sig T) (v : T.Contents (Elt Ideal)) : x.ofBuf (x.toBuf v) = v := by
  obtain ⟨r, rfl, _, _⟩ := x
  rfl

/-! ## What each stretch of host operations leaves alone

Each stretch writes the buffers of its own results and nothing else; a buffer outside that list holds after the stretch
what it held before, whatever the contents `V` the stretch started from. -/

/-- The results of the first stretch: the two rows of the edge list, the first bias as a row, and a zero row. -/
abbrev prepResults : List (Ref sig .tc) := [main_v0, main_v1, main_v2, main_v3, main_v4, main_cst, main_v5]

theorem prep_keeps (V : Valuation τ sig (Elt Ideal)) (r : Ref sig .tc) (hr : r ∉ prepResults) :
    StableHlo.after hostOps0 V (Proc.devRef .tc r) = V (Proc.devRef .tc r) := by
  refine StableHlo.after_of_writes_sub hostOps0 V ?_ hr
  simp only [hostOps0, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- The results of the edge features' linear layer: the transposed weight and the product. -/
abbrev edgeLinResults : List (Ref sig .tc) := [main_v8, main_v9]

theorem edgeLin_keeps (V : Valuation τ sig (Elt Ideal)) (r : Ref sig .tc) (hr : r ∉ edgeLinResults) :
    StableHlo.after hostOps2 V (Proc.devRef .tc r) = V (Proc.devRef .tc r) := by
  refine StableHlo.after_of_writes_sub hostOps2 V ?_ hr
  simp only [hostOps2, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- The results of the row lookup at the target row numbers. -/
abbrev lookupDstResults : List (Ref sig .tc) := [main_call0_c, main_call0_v0, main_call0_v1, main_call0_c_0, main_call0_v2, main_call0_v3,
    main_call0_v4, main_call0_v5, main_call0_c_1, main_call0_c_2, main_call0_v6, main_call0_v7, main_call0_v8,
    main_call0_v9, main_call0_v10, main_call0_v11, main_call0_c_3, main_call0_v12, main_call0_v13, main_call0_v14,
    main_call0_cst, main_call0_v15, main_v10]

theorem lookupDst_keeps (V : Valuation τ sig (Elt Ideal)) (r : Ref sig .tc) (hr : r ∉ lookupDstResults) :
    StableHlo.after hostOps2_1 V (Proc.devRef .tc r) = V (Proc.devRef .tc r) := by
  refine StableHlo.after_of_writes_sub hostOps2_1 V ?_ hr
  simp only [hostOps2_1, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- The results of the row lookup at the source row numbers. -/
abbrev lookupSrcResults : List (Ref sig .tc) := [main_call1_c, main_call1_v0, main_call1_v1, main_call1_c_0, main_call1_v2, main_call1_v3,
    main_call1_v4, main_call1_v5, main_call1_c_1, main_call1_c_2, main_call1_v6, main_call1_v7, main_call1_v8,
    main_call1_v9, main_call1_v10, main_call1_v11, main_call1_c_3, main_call1_v12, main_call1_v13, main_call1_v14,
    main_call1_cst, main_call1_v15, main_v11]

theorem lookupSrc_keeps (V : Valuation τ sig (Elt Ideal)) (r : Ref sig .tc) (hr : r ∉ lookupSrcResults) :
    StableHlo.after hostOps2_2 V (Proc.devRef .tc r) = V (Proc.devRef .tc r) := by
  refine StableHlo.after_of_writes_sub hostOps2_2 V ?_ hr
  simp only [hostOps2_2, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- The results of the stretch before launch 2: the two sums and three vectors as rows. -/
abbrev sumResults : List (Ref sig .tc) := [main_v12, main_v13, main_v14, main_v15, main_v16]

theorem sum_keeps (V : Valuation τ sig (Elt Ideal)) (r : Ref sig .tc) (hr : r ∉ sumResults) :
    StableHlo.after hostOps2_3 V (Proc.devRef .tc r) = V (Proc.devRef .tc r) := by
  refine StableHlo.after_of_writes_sub hostOps2_3 V ?_ hr
  simp only [hostOps2_3, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- The results of the last stretch: a zero table, the target row numbers as a column, and the accumulated rows. -/
abbrev accumResults : List (Ref sig .tc) := [main_cst_0, main_v18, main_v19, main_v20]

theorem accum_keeps (V : Valuation τ sig (Elt Ideal)) (r : Ref sig .tc) (hr : r ∉ accumResults) :
    StableHlo.after hostOps3 V (Proc.devRef .tc r) = V (Proc.devRef .tc r) := by
  refine StableHlo.after_of_writes_sub hostOps3 V ?_ hr
  simp only [hostOps3, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-! ## What each launch leaves alone

A launch rewrites its own operand arrays (each input as entered, each output at what its write-backs leave) and no other
buffer. -/

/-- Launch 0's operand arrays. -/
abbrev arrays0 : List (Ref sig .tc) := [main_arg1, main_arg4, main_v4, main_v6]
/-- Launch 1's operand arrays. -/
abbrev arrays1 : List (Ref sig .tc) := [main_arg0, main_arg7, main_v5, main_v7]
/-- Launch 2's operand arrays. -/
abbrev arrays2 : List (Ref sig .tc) := [main_v13, main_v14, main_v15, main_arg10, main_v16, main_v17]

theorem arrays0_mem : ∀ w : Fin cfg0.W, Pipeline.arrRef spec0 w ∈ arrays0 := by decide
theorem arrays1_mem : ∀ w : Fin cfg1.W, Pipeline.arrRef spec1 w ∈ arrays1 := by decide
theorem arrays2_mem : ∀ w : Fin cfg2.W, Pipeline.arrRef spec2 w ∈ arrays2 := by decide

theorem launch0_keeps (r : Ref sig .tc) (hr : r ∉ arrays0) :
    W2 m ρ c (Proc.devRef .tc r) = W1 m ρ c (Proc.devRef .tc r) :=
  W2_of_ne m ρ c r fun w e => hr (e ▸ arrays0_mem w)
theorem launch1_keeps (r : Ref sig .tc) (hr : r ∉ arrays1) :
    W3 m ρ c (Proc.devRef .tc r) = W2 m ρ c (Proc.devRef .tc r) :=
  W3_of_ne m ρ c r fun w e => hr (e ▸ arrays1_mem w)
theorem launch2_keeps (r : Ref sig .tc) (hr : r ∉ arrays2) :
    W8 m ρ c (Proc.devRef .tc r) = W7 m ρ c (Proc.devRef .tc r) :=
  W8_of_ne m ρ c r fun w e => hr (e ▸ arrays2_mem w)

/-! ## Buffers nothing has written yet hold their launch contents -/

/-- At launch 0's entry. -/
theorem at1_launch (r : Ref sig .tc) (h0 : r ∉ prepResults) :
    W1 m ρ c (Proc.devRef .tc r) = m ((c : Thread nD τ).loc r) :=
  prep_keeps (W0 m ρ c) r h0

/-- At launch 1's entry. -/
theorem at2_launch (r : Ref sig .tc) (h0 : r ∉ prepResults) (hA0 : r ∉ arrays0) :
    W2 m ρ c (Proc.devRef .tc r) = m ((c : Thread nD τ).loc r) :=
  (launch0_keeps m ρ c r hA0).trans (at1_launch m ρ c r h0)

/-- At launch 1's exit. -/
theorem at3_launch (r : Ref sig .tc) (h0 : r ∉ prepResults) (hA0 : r ∉ arrays0) (hA1 : r ∉ arrays1) :
    W3 m ρ c (Proc.devRef .tc r) = m ((c : Thread nD τ).loc r) :=
  (launch1_keeps m ρ c r hA1).trans (at2_launch m ρ c r h0 hA0)

/-- Before the last stretch ahead of launch 2. -/
theorem at6_launch (r : Ref sig .tc) (h0 : r ∉ prepResults) (hA0 : r ∉ arrays0) (hA1 : r ∉ arrays1)
    (h2 : r ∉ edgeLinResults) (h21 : r ∉ lookupDstResults) (h22 : r ∉ lookupSrcResults) :
    W6 m ρ c (Proc.devRef .tc r) = m ((c : Thread nD τ).loc r) :=
  (lookupSrc_keeps (W5 m ρ c) r h22).trans ((lookupDst_keeps (W4 m ρ c) r h21).trans
    ((edgeLin_keeps (W3 m ρ c) r h2).trans (at3_launch m ρ c r h0 hA0 hA1)))

/-- At launch 2's entry. -/
theorem at7_launch (r : Ref sig .tc) (h0 : r ∉ prepResults) (hA0 : r ∉ arrays0) (hA1 : r ∉ arrays1)
    (h2 : r ∉ edgeLinResults) (h21 : r ∉ lookupDstResults) (h22 : r ∉ lookupSrcResults) (h23 : r ∉ sumResults) :
    W7 m ρ c (Proc.devRef .tc r) = m ((c : Thread nD τ).loc r) :=
  (sum_keeps (W6 m ρ c) r h23).trans (at6_launch m ρ c r h0 hA0 hA1 h2 h21 h22)

/-! ## What each stretch writes, from any contents `V` it starts from -/

/-- The source row numbers: the edge list's row 0 as a vector. -/
theorem prep_src (V : Valuation τ sig (Elt Ideal)) :
    StableHlo.after hostOps0 V (Proc.devRef .tc main_v1) = srcIdx (V (Proc.devRef .tc main_arg3)) := by
  after_results
  all_goals rfl

/-- The target row numbers: the edge list's row 1 as a vector. -/
theorem prep_dst (V : Valuation τ sig (Elt Ideal)) :
    StableHlo.after hostOps0 V (Proc.devRef .tc main_v3) = dstIdx (V (Proc.devRef .tc main_arg3)) := by
  after_results
  all_goals rfl

/-- A vector of 64 entries as a row. -/
abbrev asRow (v : FVec Ideal S64 .f32) : FVec Ideal S1x64 .f32 := shapeCast S1x64 v shapeCasts_S64_S1x64

/-- The first bias vector as a row. -/
theorem prep_bias (V : Valuation τ sig (Elt Ideal)) :
    StableHlo.after hostOps0 V (Proc.devRef .tc main_v4) = asRow (V (Proc.devRef .tc main_arg5)) := by
  after_results
  all_goals rfl

/-- A row of zeros. -/
theorem prep_zero (V : Valuation τ sig (Elt Ideal)) :
    StableHlo.after hostOps0 V (Proc.devRef .tc main_v5)
      = broadcastInDim S1x64 ![] bcast_S_S1x64 (constant (F := Ideal) S_ .f32 0x00000000#32) := by
  after_results
  all_goals rfl

/-- The edge features' linear layer as a function of the features and the weight. -/
abbrev edgeLinOf (x : FVec Ideal S2000000x2 .f32) (w : FVec Ideal S64x2 .f32) : FVec Ideal S2000000x64 .f32 :=
  Host.dotGeneral dot_S2000000x2_S2x64_S2000000x64_1_0_0_1_n_n none x (transpose S2x64 [1, 0] w transposes_S64x2_S2x64_1_0)

/-- The edge features times the transposed weight. -/
theorem edgeLin_writes (V : Valuation τ sig (Elt Ideal)) :
    StableHlo.after hostOps2 V (Proc.devRef .tc main_v9)
      = edgeLinOf (V (Proc.devRef .tc main_arg2)) (V (Proc.devRef .tc main_arg6)) := by
  after_results
  all_goals rfl

/-- Three per-edge tables added entry by entry, the first two first. -/
abbrev sumOf (p q e : FVec Ideal S2000000x64 .f32) : FVec Ideal S2000000x64 .f32 := addf (addf p q) e

/-- The sum of the two looked-up rows and the edge term. -/
theorem sum_writes (V : Valuation τ sig (Elt Ideal)) :
    StableHlo.after hostOps2_3 V (Proc.devRef .tc main_v13)
      = sumOf (V (Proc.devRef .tc main_v10)) (V (Proc.devRef .tc main_v11)) (V (Proc.devRef .tc main_v9)) := by
  after_results
  all_goals rfl

theorem sum_row14 (V : Valuation τ sig (Elt Ideal)) :
    StableHlo.after hostOps2_3 V (Proc.devRef .tc main_v14) = asRow (V (Proc.devRef .tc main_arg8)) := by
  after_results
  all_goals rfl
theorem sum_row15 (V : Valuation τ sig (Elt Ideal)) :
    StableHlo.after hostOps2_3 V (Proc.devRef .tc main_v15) = asRow (V (Proc.devRef .tc main_arg9)) := by
  after_results
  all_goals rfl
theorem sum_row16 (V : Valuation τ sig (Elt Ideal)) :
    StableHlo.after hostOps2_3 V (Proc.devRef .tc main_v16) = asRow (V (Proc.devRef .tc main_arg11)) := by
  after_results
  all_goals rfl

/-- The accumulation of the message rows onto a zero table at the target row numbers. -/
abbrev accumOf (idx : IVec S2000000 32) (u : FVec Ideal S2000000x64 .f32) : FVec Ideal S100000x64 .f32 :=
  Host.scatterAdd scatter_S100000x64_S2000000x1_S2000000x64_1_0_0_1
    (broadcastInDim S100000x64 ![] bcast_S_S100000x64 (constant (F := Ideal) S_ .f32 0x00000000#32))
    (broadcastInDim S2000000x1 ![0] bcast_S2000000_S2000000x1_0 idx) u

theorem accum_writes (V : Valuation τ sig (Elt Ideal)) :
    StableHlo.after hostOps3 V (Proc.devRef .tc main_v20)
      = accumOf (V (Proc.devRef .tc main_v3)) (V (Proc.devRef .tc main_v17)) := by
  after_results
  all_goals rfl

/-! ## The filled gather in two steps: the range test of a column, then the gather and its fill -/

/-- Per row: is the column's entry inside `[0, 99999]`? -/
abbrev rangeOfColumn (col : IVec S2000000x1 32) : IVec S2000000 1 :=
  Host.reduce IntOp.andi
    (andi (cmpi .sge col (broadcastInDim S2000000x1 ![] bcast_S_S2000000x1 (constantI S_ 32 0#32)))
      (cmpi .sle col (broadcastInDim S2000000x1 ![0, 1] bcast_S1x1_S2000000x1_0_1
        (broadcastInDim S1x1 ![1] bcast_S1_S1x1_1 (constantI S1 32 99999#32)))))
    (constantI S_ 1 1#1) reducesTo_S2000000x1_S2000000_d1 h_S_

/-- The table's rows at a column of row numbers, the rows a test rejects replaced by the fill word. -/
abbrev fillOf (ok : IVec S2000000 1) (x : FVec Ideal S100000x64 .f32) (col : IVec S2000000x1 32) : FVec Ideal S2000000x64 .f32 :=
  select (broadcastInDim S2000000x64 ![0] bcast_S2000000_S2000000x64_0 ok)
    (Host.gather gather_S100000x64_S2000000x1_S2000000x64_1_0_n_n_0_1_164 x col)
    (broadcastInDim S2000000x64 ![] bcast_S_S2000000x64 (constant S_ .f32 0x7FC00000#32))

/-! ### The row lookup at the target row numbers

The stretch's 23 operations are cut after the eighth and after the eighteenth: the wrapped row numbers as a column, the
range test of the column, and the gather with its fill. Each piece is read off on its own, from any contents. -/

theorem lookupDst_split : (hostOps2_1 : List (HloOp τ sig (Elt Ideal)))
    = hostOps2_1.take 8 ++ ((hostOps2_1.drop 8).take 10 ++ hostOps2_1.drop 18) := by
  have h : (hostOps2_1 : List (HloOp τ sig (Elt Ideal))).drop 18 = (hostOps2_1.drop 8).drop 10 := by rw [List.drop_drop]
  rw [h, List.take_append_drop, List.take_append_drop]

/-- The first eight operations leave the wrapped row numbers as a column. -/
theorem lookupDst_column (V : Valuation τ sig (Elt Ideal)) :
    StableHlo.after ((hostOps2_1 : List (HloOp τ sig (Elt Ideal))).take 8) V (Proc.devRef .tc main_call0_v5)
      = column (V (Proc.devRef .tc main_v3)) := by
  simp only [hostOps2_1, List.take, List.drop]
  after_results_simp
  rfl

/-- They do not touch the table. -/
theorem lookupDst_column_keeps (V : Valuation τ sig (Elt Ideal)) :
    StableHlo.after ((hostOps2_1 : List (HloOp τ sig (Elt Ideal))).take 8) V (Proc.devRef .tc main_v6)
      = V (Proc.devRef .tc main_v6) := by
  simp only [hostOps2_1, List.take, List.drop]
  after_results_simp

/-- The next ten operations leave the range test of the column. -/
theorem lookupDst_range (V : Valuation τ sig (Elt Ideal)) :
    StableHlo.after (((hostOps2_1 : List (HloOp τ sig (Elt Ideal))).drop 8).take 10) V (Proc.devRef .tc main_call0_v12)
      = rangeOfColumn (V (Proc.devRef .tc main_call0_v5)) := by
  simp only [hostOps2_1, List.take, List.drop]
  after_results_simp
  simp only [ofBuf_toBuf]
  refine cast_eq_iff_heq.mpr (heq_of_eq ?_)
  rfl

/-- They touch neither the column nor the table. -/
theorem lookupDst_range_keeps_column (V : Valuation τ sig (Elt Ideal)) :
    StableHlo.after (((hostOps2_1 : List (HloOp τ sig (Elt Ideal))).drop 8).take 10) V (Proc.devRef .tc main_call0_v5)
      = V (Proc.devRef .tc main_call0_v5) := by
  simp only [hostOps2_1, List.take, List.drop]
  after_results_simp
theorem lookupDst_range_keeps_table (V : Valuation τ sig (Elt Ideal)) :
    StableHlo.after (((hostOps2_1 : List (HloOp τ sig (Elt Ideal))).drop 8).take 10) V (Proc.devRef .tc main_v6)
      = V (Proc.devRef .tc main_v6) := by
  simp only [hostOps2_1, List.take, List.drop]
  after_results_simp

/-- The last five operations gather the table's rows at the column and fill the rows the test rejects. -/
theorem lookupDst_fill (V : Valuation τ sig (Elt Ideal)) :
    StableHlo.after ((hostOps2_1 : List (HloOp τ sig (Elt Ideal))).drop 18) V (Proc.devRef .tc main_v10)
      = fillOf (V (Proc.devRef .tc main_call0_v12)) (V (Proc.devRef .tc main_v6)) (V (Proc.devRef .tc main_call0_v5)) := by
  simp only [hostOps2_1, List.take, List.drop]
  after_results_simp
  rfl

/-- The whole stretch: the filled gather of the table at the row numbers. -/
theorem lookupDst_writes (V : Valuation τ sig (Elt Ideal)) :
    StableHlo.after hostOps2_1 V (Proc.devRef .tc main_v10)
      = gatherFill (F := Ideal) (V (Proc.devRef .tc main_v6)) (V (Proc.devRef .tc main_v3)) := by
  rw [lookupDst_split, StableHlo.after_append, StableHlo.after_append, lookupDst_fill, lookupDst_range,
    lookupDst_range_keeps_column, lookupDst_range_keeps_table, lookupDst_column, lookupDst_column_keeps]
  rfl

/-! ### The row lookup at the source row numbers

The stretch's 23 operations are cut after the eighth and after the eighteenth: the wrapped row numbers as a column, the
range test of the column, and the gather with its fill. Each piece is read off on its own, from any contents. -/

theorem lookupSrc_split : (hostOps2_2 : List (HloOp τ sig (Elt Ideal)))
    = hostOps2_2.take 8 ++ ((hostOps2_2.drop 8).take 10 ++ hostOps2_2.drop 18) := by
  have h : (hostOps2_2 : List (HloOp τ sig (Elt Ideal))).drop 18 = (hostOps2_2.drop 8).drop 10 := by rw [List.drop_drop]
  rw [h, List.take_append_drop, List.take_append_drop]

/-- The first eight operations leave the wrapped row numbers as a column. -/
theorem lookupSrc_column (V : Valuation τ sig (Elt Ideal)) :
    StableHlo.after ((hostOps2_2 : List (HloOp τ sig (Elt Ideal))).take 8) V (Proc.devRef .tc main_call1_v5)
      = column (V (Proc.devRef .tc main_v1)) := by
  simp only [hostOps2_2, List.take, List.drop]
  after_results_simp
  rfl

/-- They do not touch the table. -/
theorem lookupSrc_column_keeps (V : Valuation τ sig (Elt Ideal)) :
    StableHlo.after ((hostOps2_2 : List (HloOp τ sig (Elt Ideal))).take 8) V (Proc.devRef .tc main_v7)
      = V (Proc.devRef .tc main_v7) := by
  simp only [hostOps2_2, List.take, List.drop]
  after_results_simp

/-- The next ten operations leave the range test of the column. -/
theorem lookupSrc_range (V : Valuation τ sig (Elt Ideal)) :
    StableHlo.after (((hostOps2_2 : List (HloOp τ sig (Elt Ideal))).drop 8).take 10) V (Proc.devRef .tc main_call1_v12)
      = rangeOfColumn (V (Proc.devRef .tc main_call1_v5)) := by
  simp only [hostOps2_2, List.take, List.drop]
  after_results_simp
  simp only [ofBuf_toBuf]
  refine cast_eq_iff_heq.mpr (heq_of_eq ?_)
  rfl

/-- They touch neither the column nor the table. -/
theorem lookupSrc_range_keeps_column (V : Valuation τ sig (Elt Ideal)) :
    StableHlo.after (((hostOps2_2 : List (HloOp τ sig (Elt Ideal))).drop 8).take 10) V (Proc.devRef .tc main_call1_v5)
      = V (Proc.devRef .tc main_call1_v5) := by
  simp only [hostOps2_2, List.take, List.drop]
  after_results_simp
theorem lookupSrc_range_keeps_table (V : Valuation τ sig (Elt Ideal)) :
    StableHlo.after (((hostOps2_2 : List (HloOp τ sig (Elt Ideal))).drop 8).take 10) V (Proc.devRef .tc main_v7)
      = V (Proc.devRef .tc main_v7) := by
  simp only [hostOps2_2, List.take, List.drop]
  after_results_simp

/-- The last five operations gather the table's rows at the column and fill the rows the test rejects. -/
theorem lookupSrc_fill (V : Valuation τ sig (Elt Ideal)) :
    StableHlo.after ((hostOps2_2 : List (HloOp τ sig (Elt Ideal))).drop 18) V (Proc.devRef .tc main_v11)
      = fillOf (V (Proc.devRef .tc main_call1_v12)) (V (Proc.devRef .tc main_v7)) (V (Proc.devRef .tc main_call1_v5)) := by
  simp only [hostOps2_2, List.take, List.drop]
  after_results_simp
  rfl

/-- The whole stretch: the filled gather of the table at the row numbers. -/
theorem lookupSrc_writes (V : Valuation τ sig (Elt Ideal)) :
    StableHlo.after hostOps2_2 V (Proc.devRef .tc main_v11)
      = gatherFill (F := Ideal) (V (Proc.devRef .tc main_v7)) (V (Proc.devRef .tc main_v1)) := by
  rw [lookupSrc_split, StableHlo.after_append, StableHlo.after_append, lookupSrc_fill, lookupSrc_range,
    lookupSrc_range_keeps_column, lookupSrc_range_keeps_table, lookupSrc_column, lookupSrc_column_keeps]
  rfl

/-! ## The values the later stretches read, at the boundaries where they are read -/

/-- The target row numbers when launch 0 is entered. -/
theorem dst_at1 : W1 m ρ c (Proc.devRef .tc main_v3) = dstIdx (a3 m c) := prep_dst (W0 m ρ c)
/-- The source row numbers when launch 0 is entered. -/
theorem src_at1 : W1 m ρ c (Proc.devRef .tc main_v1) = srcIdx (a3 m c) := prep_src (W0 m ρ c)

/-- Neither launch 0 nor launch 1 has the target row numbers among its arrays. -/
theorem dst_at3 : W3 m ρ c (Proc.devRef .tc main_v3) = dstIdx (a3 m c) :=
  (launch1_keeps m ρ c main_v3 (by decide)).trans ((launch0_keeps m ρ c main_v3 (by decide)).trans (dst_at1 m ρ c))
theorem src_at3 : W3 m ρ c (Proc.devRef .tc main_v1) = srcIdx (a3 m c) :=
  (launch1_keeps m ρ c main_v1 (by decide)).trans ((launch0_keeps m ρ c main_v1 (by decide)).trans (src_at1 m ρ c))

/-- The target row numbers where the first lookup reads them. -/
theorem dst_at4 : W4 m ρ c (Proc.devRef .tc main_v3) = dstIdx (a3 m c) :=
  (edgeLin_keeps (W3 m ρ c) main_v3 (by decide)).trans (dst_at3 m ρ c)
/-- The source row numbers where the second lookup reads them. -/
theorem src_at5 : W5 m ρ c (Proc.devRef .tc main_v1) = srcIdx (a3 m c) :=
  (lookupDst_keeps (W4 m ρ c) main_v1 (by decide)).trans
    ((edgeLin_keeps (W3 m ρ c) main_v1 (by decide)).trans (src_at3 m ρ c))
/-- The target row numbers where the last stretch reads them. -/
theorem dst_at8 : W8 m ρ c (Proc.devRef .tc main_v3) = dstIdx (a3 m c) :=
  (launch2_keeps m ρ c main_v3 (by decide)).trans ((sum_keeps (W6 m ρ c) main_v3 (by decide)).trans
    ((lookupSrc_keeps (W5 m ρ c) main_v3 (by decide)).trans ((lookupDst_keeps (W4 m ρ c) main_v3 (by decide)).trans
      (dst_at4 m ρ c))))

/-- Launch 0's output where the first lookup reads it: launch 1 does not have it among its arrays. -/
theorem projI_at4 : W4 m ρ c (Proc.devRef .tc main_v6) = projI m ρ c :=
  (edgeLin_keeps (W3 m ρ c) main_v6 (by decide)).trans
    ((launch1_keeps m ρ c main_v6 (by decide)).trans (W2_arr m ρ c 3))
/-- Launch 1's output where the second lookup reads it. -/
theorem projJ_at5 : W5 m ρ c (Proc.devRef .tc main_v7) = projJ m ρ c :=
  (lookupDst_keeps (W4 m ρ c) main_v7 (by decide)).trans
    ((edgeLin_keeps (W3 m ρ c) main_v7 (by decide)).trans (W3_arr m ρ c 3))

/-- The edge term when launch 1 has ended. -/
theorem edgeLin_at4 : W4 m ρ c (Proc.devRef .tc main_v9) = edgeLin m c :=
  (edgeLin_writes (W3 m ρ c)).trans
    (congrArg₂ edgeLinOf (at3_launch m ρ c main_arg2 (by decide) (by decide) (by decide))
      (at3_launch m ρ c main_arg6 (by decide) (by decide) (by decide)))
/-- The edge term where the sum reads it: neither lookup writes it. -/
theorem edgeLin_at6 : W6 m ρ c (Proc.devRef .tc main_v9) = edgeLin m c :=
  (lookupSrc_keeps (W5 m ρ c) main_v9 (by decide)).trans
    ((lookupDst_keeps (W4 m ρ c) main_v9 (by decide)).trans (edgeLin_at4 m ρ c))

/-- The rows of launch 0's output at the target row numbers, where the sum reads them. -/
theorem lookupDst_at6 : W6 m ρ c (Proc.devRef .tc main_v10) = gatherFill (projI m ρ c) (dstIdx (a3 m c)) :=
  (lookupSrc_keeps (W5 m ρ c) main_v10 (by decide)).trans
    ((lookupDst_writes (W4 m ρ c)).trans (congrArg₂ (gatherFill (F := Ideal)) (projI_at4 m ρ c) (dst_at4 m ρ c)))
/-- The rows of launch 1's output at the source row numbers, where the sum reads them. -/
theorem lookupSrc_at6 : W6 m ρ c (Proc.devRef .tc main_v11) = gatherFill (projJ m ρ c) (srcIdx (a3 m c)) :=
  (lookupSrc_writes (W5 m ρ c)).trans (congrArg₂ (gatherFill (F := Ideal)) (projJ_at5 m ρ c) (src_at5 m ρ c))

/-! ## What launch 0 finds -/
theorem entry0_x : V1 m ρ c main_arg1 = a1 m c := at1_launch m ρ c main_arg1 (by decide)
theorem entry0_w : V1 m ρ c main_arg4 = a4 m c := at1_launch m ρ c main_arg4 (by decide)
theorem entry0_b : V1 m ρ c main_v4 = shapeCast S1x64 (a5 m c) shapeCasts_S64_S1x64 := prep_bias (W0 m ρ c)

/-! ## What launch 1 finds -/
theorem entry1_x : V2 m ρ c main_arg0 = a0 m c := at2_launch m ρ c main_arg0 (by decide) (by decide)
theorem entry1_w : V2 m ρ c main_arg7 = a7 m c := at2_launch m ρ c main_arg7 (by decide) (by decide)
theorem entry1_b : V2 m ρ c main_v5 = broadcastInDim S1x64 ![] bcast_S_S1x64 (constant (F := Ideal) S_ .f32 0x00000000#32) :=
  (launch0_keeps m ρ c main_v5 (by decide)).trans (prep_zero (W0 m ρ c))

/-! ## What launch 2 finds -/
theorem entry2_h : V7 m ρ c main_v13
    = addf (addf (gatherFill (projI m ρ c) (dstIdx (a3 m c))) (gatherFill (projJ m ρ c) (srcIdx (a3 m c)))) (edgeLin m c) :=
  (sum_writes (W6 m ρ c)).trans
    (congr (congrArg₂ sumOf (lookupDst_at6 m ρ c) (lookupSrc_at6 m ρ c)) (edgeLin_at6 m ρ c))
theorem entry2_g : V7 m ρ c main_v14 = shapeCast S1x64 (a8 m c) shapeCasts_S64_S1x64 :=
  (sum_row14 (W6 m ρ c)).trans
    (congrArg asRow (at6_launch m ρ c main_arg8 (by decide) (by decide) (by decide) (by decide) (by decide) (by decide)))
theorem entry2_b : V7 m ρ c main_v15 = shapeCast S1x64 (a9 m c) shapeCasts_S64_S1x64 :=
  (sum_row15 (W6 m ρ c)).trans
    (congrArg asRow (at6_launch m ρ c main_arg9 (by decide) (by decide) (by decide) (by decide) (by decide) (by decide)))
theorem entry2_w : V7 m ρ c main_arg10 = a10 m c :=
  at7_launch m ρ c main_arg10 (by decide) (by decide) (by decide) (by decide) (by decide) (by decide) (by decide)
theorem entry2_bf : V7 m ρ c main_v16 = shapeCast S1x64 (a11 m c) shapeCasts_S64_S1x64 :=
  (sum_row16 (W6 m ρ c)).trans
    (congrArg asRow (at6_launch m ρ c main_arg11 (by decide) (by decide) (by decide) (by decide) (by decide) (by decide)))

/-! ## The result buffer -/
theorem result : W9 m ρ c (Proc.devRef .tc main_v20)
    = Host.scatterAdd scatter_S100000x64_S2000000x1_S2000000x64_1_0_0_1
        (broadcastInDim S100000x64 ![] bcast_S_S100000x64 (constant (F := Ideal) S_ .f32 0x00000000#32))
        (broadcastInDim S2000000x1 ![0] bcast_S2000000_S2000000x1_0 (dstIdx (a3 m c)))
        (msgs m ρ c) :=
  (accum_writes (W8 m ρ c)).trans (congrArg₂ accumOf (dst_at8 m ρ c) (W8_arr m ρ c 5))

end Cert.KernelIdeal.HostChain

end
-- ==== Proof.Spec.lean ====
/-
  The mathematics both programs compute, one row at a time, on the extended reals.

  A linear layer's entry is the sum, over the contracted axis, of a row of the input times a row of the weight.
  The per-edge transform takes a row `h` of 64 entries: its mean `μ` (the sum over 64.0), the mean of the squared
  deviations `v`, the normalised row `(h − μ) · rsqrt (v + ε) · g + b`, its positive part, and that row through the
  final linear layer plus its bias. The float words (64.0, ε, 0.0) are kept as words: both programs carry the same
  ones, so they are never evaluated.
-/
import Idealize.ShloMosaic.PureOps.Ideal
import Idealize.ShloMosaic.Lib.ValueIdx

noncomputable section

open scoped BigOperators

namespace Cert.Spec

open Idealize.ShloMosaic

/-- An entry of `x Wᵀ`: the sum over the contracted axis of a row of `x` times a row of `W`. -/
def linRow {K : Nat} (x w : Fin K → EReal) : EReal := ∑ k : Fin K, x k * w k

/-- The mean of a row of 64 entries: its sum over the word for 64.0. -/
def mean64 (h : Fin 64 → EReal) : EReal := Ideal.div (∑ k : Fin 64, h k) (Ideal.ofBits .f32 0x42800000#32)

/-- A row's deviation from its mean. -/
def dev (h : Fin 64 → EReal) (k : Fin 64) : EReal := h k - mean64 h

/-- The reciprocal standard deviation of a row: `rsqrt` of the mean squared deviation plus the word for ε. -/
def rstd (h : Fin 64 → EReal) : EReal :=
  Ideal.rsqrt (mean64 (fun k => dev h k * dev h k) + Ideal.ofBits .f32 0x3727C5AC#32)

/-- The normalised, scaled and shifted row, cut off below at the word for 0.0. -/
def act (h g b : Fin 64 → EReal) (k : Fin 64) : EReal :=
  max (dev h k * rstd h * g k + b k) (Ideal.ofBits .f32 0x00000000#32)

/-- Entry `q` of the per-edge transform of the row `h`: the activated row through the final linear layer, plus its bias. -/
def edgeRow (h g b : Fin 64 → EReal) (wf : Fin 64 → Fin 64 → EReal) (bf : Fin 64 → EReal) (q : Fin 64) : EReal :=
  linRow (act h g b) (wf q) + bf q

end Cert.Spec

end
-- ==== Proof.ProjValue.lean ====
/-
  The two projection launches, as values: after its run each launch's output array holds, at row `r` and column `q`,
  the sum over `k` of the input's row `r` times the weight's row `q`, plus the bias row's entry `q` — whatever the
  contents `V` the launch is entered from. The body rounds its matrix product's inputs to bf16, which is the identity
  on the extended reals, and accumulates into zero.
-/
import proofs.«404003_j32538672234882_3_alg».proof.Proof.Gen.KernelIdeal.Frame
import proofs.«404003_j32538672234882_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.ProjValue

open Cert.KernelIdeal Cert.KernelIdeal.Gen Idealize.ShloMosaic Idealize.ShloMosaic.TcCoe Idealize.SL.Sem
open Idealize.ShloMosaic.Pipeline (Dat)
open Idealize.ShloMosaic.ValueIdx

/-! ## One block's product at an entry

Both launches run the same body on a block of 10000 rows: the block times the transposed weight, plus the bias row laid
along every row. Its matrix product contracts the block's column axis with the transposed weight's row axis. -/

/-- The left operand is read on the output entry's row … -/
theorem lhs_row (i : S10000x64.Idx) (k : dot_S10000x64_S64x64_S10000x64_1_0_0_1_n_n.contr.Idx) :
    (dot_S10000x64_S64x64_S10000x64_1_0_0_1_n_n.lhsIdx i k 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- … at the contracted position on its column axis. -/
theorem lhs_col (i : S10000x64.Idx) (k : dot_S10000x64_S64x64_S10000x64_1_0_0_1_n_n.contr.Idx) :
    (dot_S10000x64_S64x64_S10000x64_1_0_0_1_n_n.lhsIdx i k 1).val = (k ⟨0, by decide⟩).val :=
  dot_S10000x64_S64x64_S10000x64_1_0_0_1_n_n.lhsIdx_val_of_single rfl i k
/-- The right operand is read at the contracted position on its row axis … -/
theorem rhs_row (i : S10000x64.Idx) (k : dot_S10000x64_S64x64_S10000x64_1_0_0_1_n_n.contr.Idx) :
    (dot_S10000x64_S64x64_S10000x64_1_0_0_1_n_n.rhsIdx i k 0).val = (k ⟨0, by decide⟩).val :=
  dot_S10000x64_S64x64_S10000x64_1_0_0_1_n_n.rhsIdx_val_of_single rfl i k
/-- … on the output entry's column. -/
theorem rhs_col (i : S10000x64.Idx) (k : dot_S10000x64_S64x64_S10000x64_1_0_0_1_n_n.contr.Idx) :
    (dot_S10000x64_S64x64_S10000x64_1_0_0_1_n_n.rhsIdx i k 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The product of a 10000 × 64 block `u` and a 64 × 64 matrix `v`, accumulated into zero, at `(p, q)`: the sum over
    `k` of `u (p, k) · v (k, q)`. -/
theorem matmul_entry (u : FVec Ideal S10000x64 .bf16) (v : FVec Ideal S64x64 .bf16) (p : Fin 10000) (q : Fin 64) :
    matmul dot_S10000x64_S64x64_S10000x64_1_0_0_1_n_n none u v (constant (F := Ideal) S10000x64 .f32 0x00000000#32) (ix2 p q)
      = ∑ k : Fin 64, u (ix2 p k) * v (ix2 k q) := by
  simp only [matmul]
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
    match a with
    | ⟨0, _⟩ => exact lhs_row _ _
    | ⟨1, _⟩ => exact (lhs_col _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
    match a with
    | ⟨0, _⟩ => exact (rhs_row _ _).trans hk
    | ⟨1, _⟩ => exact rhs_col _ _)
  rw [el, er]

/-- The transposed weight at `(k, q)` is the weight at `(q, k)`. -/
theorem transpose_entry (w : FVec Ideal S64x64 .bf16) (k q : Fin 64) :
    transpose S64x64 [1, 0] w transposes_S64x64_p1_0_S64x64 (ix2 k q) = w (ix2 q k) :=
  transpose_apply [1, 0] w transposes_S64x64_p1_0_S64x64 (ix2 k q) (ix2 q k) (fun b => match b with
    | ⟨0, _⟩ => rfl
    | ⟨1, _⟩ => rfl)

/-- The bias row laid along every row of the block: at `(p, q)` it is the row's entry `q`. -/
theorem bias_entry (b : Vec Ideal S1x64 .f32) (p : Fin 10000) (q : Fin 64) :
    broadcastTo S10000x64 (shapeCast S1x64 b shapeCasts_S1x64_S1x64) broadcasts_S1x64_S10000x64 (ix2 p q)
      = b (ix2 (0 : Fin 1) q) := by
  rw [shapeCast_self]
  exact broadcastTo_1b_ab_apply b broadcasts_S1x64_S10000x64 p q

/-- THE BODY'S RESULT AT AN ENTRY: row `p` of the block against row `q` of the weight, plus the bias row's entry `q`.
    Rounding an operand to bf16 changes nothing on the extended reals. -/
theorem proj_payload (x : Vec Ideal S10000x64 .f32) (w : Vec Ideal S64x64 .f32) (b : Vec Ideal S1x64 .f32)
    (p : Fin 10000) (q : Fin 64) :
    k0_pay1 (F := Ideal) x w b (ix2 p q)
      = Cert.Spec.linRow (fun k => x (ix2 p k)) (fun k => w (ix2 q k)) + b (ix2 (0 : Fin 1) q) := by
  unfold k0_pay1
  refine (addf_apply _ _ (ix2 p q)).trans ?_
  refine (congrArg₂ (· + ·) (matmul_entry _ _ p q) (bias_entry b p q)).trans ?_
  unfold Cert.Spec.linRow
  refine congrArg (· + b (ix2 (0 : Fin 1) q)) (Finset.sum_congr rfl fun k _ => ?_)
  exact congrArg (x (ix2 p k) * ·) (transpose_entry _ k q)

/-- The second launch's body is the same text. -/
theorem proj_payload' (x : Vec Ideal S10000x64 .f32) (w : Vec Ideal S64x64 .f32) (b : Vec Ideal S1x64 .f32)
    (p : Fin 10000) (q : Fin 64) :
    k1_pay1 (F := Ideal) x w b (ix2 p q)
      = Cert.Spec.linRow (fun k => x (ix2 p k)) (fun k => w (ix2 q k)) + b (ix2 (0 : Fin 1) q) :=
  proj_payload x w b p q

/-! ## From blocks to the array

Grid point `t` of either launch works on rows `10000 t … 10000 t + 9999` of the input, all 64 columns, against the whole
weight and the whole bias row, and writes the same rows of the output. So the output array ends holding one function
of the three arrays, entry by entry. -/

theorem zero_offsets : (![0, 0] : Fin 2 → Nat) = fun _ => 0 := funext fun a => by fin_cases a <;> rfl

/-- The linear layer as one array: entry `(r, q)` is row `r` of `X` against row `q` of `W`, plus entry `q` of the row `B`. -/
def lin (X : S100000x64.Idx → EReal) (W : S64x64.Idx → EReal) (B : S1x64.Idx → EReal) : S100000x64.Idx → EReal :=
  fun i => Cert.Spec.linRow (fun k => X (ix2 (n0 := 100000) (n1 := 64) (i 0) k)) (fun k => W (ix2 (n0 := 64) (n1 := 64) (i 1) k))
    + B (ix2 (0 : Fin 1) (n1 := 64) (i 1))

theorem lin_apply (X : S100000x64.Idx → EReal) (W : S64x64.Idx → EReal) (B : S1x64.Idx → EReal) (r : Fin 100000) (q : Fin 64) :
    lin X W B (ix2 r q) = Cert.Spec.linRow (fun k => X (ix2 r k)) (fun k => W (ix2 q k)) + B (ix2 (0 : Fin 1) q) := rfl

/-- ONE POINT'S BLOCK OF THE RESULT: if the input block's row `p` is row `r` of the array `X`, and the weight and bias
    blocks are the whole arrays, the body's result at `(p, q)` is `lin X W B` at `(r, q)`. -/
theorem block_entry (x : Vec Ideal S10000x64 .f32) (w : Vec Ideal S64x64 .f32) (b : Vec Ideal S1x64 .f32)
    (X : S100000x64.Idx → EReal) (W : S64x64.Idx → EReal) (B : S1x64.Idx → EReal)
    (p : Fin 10000) (q : Fin 64) (r : Fin 100000)
    (hx : ∀ k : Fin 64, x (ix2 p k) = X (ix2 r k)) (hw : ∀ k : Fin 64, w (ix2 q k) = W (ix2 q k))
    (hb : b (ix2 (0 : Fin 1) q) = B (ix2 (0 : Fin 1) q)) :
    k0_pay1 (F := Ideal) x w b (ix2 p q) = lin X W B (ix2 r q) := by
  refine (proj_payload x w b p q).trans ?_
  rw [lin_apply, hb]
  unfold Cert.Spec.linRow
  exact congrArg (· + B (ix2 (0 : Fin 1) q)) (Finset.sum_congr rfl fun k _ => by
    show x (ix2 p k) * w (ix2 q k) = X (ix2 r k) * W (ix2 q k)
    rw [hx k, hw k])

/-- The same for the second launch's body, which is the same text. -/
theorem block_entry' (x : Vec Ideal S10000x64 .f32) (w : Vec Ideal S64x64 .f32) (b : Vec Ideal S1x64 .f32)
    (X : S100000x64.Idx → EReal) (W : S64x64.Idx → EReal) (B : S1x64.Idx → EReal)
    (p : Fin 10000) (q : Fin 64) (r : Fin 100000)
    (hx : ∀ k : Fin 64, x (ix2 p k) = X (ix2 r k)) (hw : ∀ k : Fin 64, w (ix2 q k) = W (ix2 q k))
    (hb : b (ix2 (0 : Fin 1) q) = B (ix2 (0 : Fin 1) q)) :
    k1_pay1 (F := Ideal) x w b (ix2 p q) = lin X W B (ix2 r q) :=
  block_entry x w b X W B p q r hx hw hb

variable (V : (c : Dev nD) → (b : Ref sig .tc) → Buf (Elt Ideal) ((c : Thread nD τ).loc b))

/-! ## Launch 0 -/

/-- The printed index maps over the 10 grid points: the input's and the output's block sit at block row `t`, block column
    0; the weight's and the bias row's block is always the one at (0, 0). -/
theorem index_maps0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- WHAT POINT `t` WRITES BACK is block `t` of `lin` of the three arrays as the launch finds them: the block's row `p`
    is the arrays' row `10000 t + p`. -/
theorem flushed0_eq (c : Dev nD) (t : Fin cfg0.N) :
    (dat0 V c).flushed 3 t = ((cfg0.win 3).blk t).view.read (Elt Ideal) (lin (V c main_arg1) (V c main_arg4) (V c main_v4)) := by
  show (cfg0.win 3).cut (grid0.coords t) ((dat0 V c).after 3 t) = _
  rw [after0_3]
  unfold out0_3
  rw [View.canon_unit_zero zero_offsets]
  simp only [View.ld_unit_zero (S := S10000x64) zero_offsets, View.ld_unit_zero (S := S64x64) zero_offsets, View.ld_unit_zero (S := S1x64) zero_offsets]
  obtain ⟨e0, e1, e2, e3, e4, e5, e6, e7⟩ := index_maps0 t
  have hN : cfg0.N = 10 := N_0
  have ht : t.val < 10 := by have := t.isLt; omega
  funext j
  obtain ⟨p, q, rfl⟩ : ∃ (p : Fin 10000) (q : Fin 64), j = ix2 p q := ⟨j 0, j 1, eq_ix2 j⟩
  have hp : p.val < 10000 := p.isLt
  have hrow : ((cfg0.win 3).blk t).view.emb (ix2 p q) = ix2 (⟨t.val * 10000 + p.val, by omega⟩ : Fin 100000) q := by
    funext a; apply Fin.ext
    match a with
    | ⟨0, _⟩ => show win0_3.index t (0 : Fin 2) * 10000 + 1 * p.val = t.val * 10000 + p.val; omega
    | ⟨1, _⟩ => show win0_3.index t (1 : Fin 2) * 64 + 1 * q.val = q.val; omega
  show k0_pay1 (F := Ideal) (iblk0 V c 0 t) (iblk0 V c 1 t) (iblk0 V c 2 t) (ix2 p q)
    = lin (V c main_arg1) (V c main_arg4) (V c main_v4) (((cfg0.win 3).blk t).view.emb (ix2 p q))
  refine (block_entry (iblk0 V c 0 t) (iblk0 V c 1 t) (iblk0 V c 2 t) (V c main_arg1) (V c main_arg4) (V c main_v4) p q
    (⟨t.val * 10000 + p.val, by omega⟩ : Fin 100000) (fun k => ?_) (fun k => ?_) ?_).trans
    (congrArg (lin (V c main_arg1) (V c main_arg4) (V c main_v4)) hrow.symm)
  · show (V c main_arg1 : S100000x64.Idx → EReal) (((cfg0.win 0).blk t).view.emb (ix2 p k))
      = (V c main_arg1 : S100000x64.Idx → EReal) (ix2 (⟨t.val * 10000 + p.val, by omega⟩ : Fin 100000) k)
    refine congrArg (V c main_arg1 : S100000x64.Idx → EReal) (funext fun a => Fin.ext ?_)
    match a with
    | ⟨0, _⟩ => show win0_0.index t (0 : Fin 2) * 10000 + 1 * p.val = t.val * 10000 + p.val; omega
    | ⟨1, _⟩ => show win0_0.index t (1 : Fin 2) * 64 + 1 * k.val = k.val; omega
  · show (V c main_arg4 : S64x64.Idx → EReal) (((cfg0.win 1).blk t).view.emb (ix2 q k))
      = (V c main_arg4 : S64x64.Idx → EReal) (ix2 q k)
    refine congrArg (V c main_arg4 : S64x64.Idx → EReal) (funext fun a => Fin.ext ?_)
    match a with
    | ⟨0, _⟩ => show win0_1.index t (0 : Fin 2) * 64 + 1 * q.val = q.val; omega
    | ⟨1, _⟩ => show win0_1.index t (1 : Fin 2) * 64 + 1 * k.val = k.val; omega
  · show (V c main_v4 : S1x64.Idx → EReal) (((cfg0.win 2).blk t).view.emb (ix2 (0 : Fin 1) q))
      = (V c main_v4 : S1x64.Idx → EReal) (ix2 (0 : Fin 1) q)
    refine congrArg (V c main_v4 : S1x64.Idx → EReal) (funext fun a => Fin.ext ?_)
    match a with
    | ⟨0, _⟩ => show win0_2.index t (0 : Fin 2) * 1 + 1 * 0 = 0; omega
    | ⟨1, _⟩ => show win0_2.index t (1 : Fin 2) * 64 + 1 * q.val = q.val; omega

/-- An entry of the output array is in point `t`'s block iff each coordinate is in the block's range on its axis. -/
theorem mem_block0 (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v6).slice (win0_3.rect t)).set ↔ _
  rw [View.set_slice_whole, Rect.mem_set_unit]
  exact Iff.rfl

/-- EVERY ENTRY IS WRITTEN: row `r` lies in the block of point `r / 10000`, and every point writes back. -/
theorem covered0 (i : S100000x64.Idx) :
    ∃ t : Fin cfg0.N, (cfg0.win 3).flush t = true ∧ i ∈ ((cfg0.win 3).blk t).view.set := by
  have hi0 : (i 0).val < 100000 := idx2_lt0 i
  have hi1 : (i 1).val < 64 := idx2_lt1 i
  have hN : cfg0.N = 10 := N_0
  obtain ⟨t, ht⟩ : ∃ t : Fin cfg0.N, t.val = (i 0).val / 10000 := ⟨⟨(i 0).val / 10000, by omega⟩, rfl⟩
  obtain ⟨-, -, -, -, -, -, e6, e7⟩ := index_maps0 t
  refine ⟨t, flush0_3 t, ?_⟩
  rw [mem_block0]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 64 ≤ (i 1).val ∧ (i 1).val < win0_3.index t (1 : Fin 2) * 64 + 64; omega

/-- THE OUTPUT ARRAY after the run is `lin` of the three arrays as the launch finds them. -/
theorem array0 (c : Dev nD) :
    (dat0 V c).arrAt 3 cfg0.N = lin (V c main_arg1) (V c main_arg4) (V c main_v4) :=
  (dat0 V c).arrAt_eq_of_cover 3 (lin (V c main_arg1) (V c main_arg4) (V c main_v4)) (fun t _ => flushed0_eq V c t) (covered0)

/-- LAUNCH 0's output array after the run, at `(r, q)`. -/
theorem final0 (c : Dev nD) (r : Fin 100000) (q : Fin 64) :
    ((dat0 V c).arrAt 3 cfg0.N : S100000x64.Idx → EReal) (ix2 r q)
      = Cert.Spec.linRow (fun k => (V c main_arg1 : S100000x64.Idx → EReal) (ix2 r k))
          (fun k => (V c main_arg4 : S64x64.Idx → EReal) (ix2 q k))
        + (V c main_v4 : S1x64.Idx → EReal) (ix2 (0 : Fin 1) q) := by
  rw [array0 V c]
  rfl

/-! ## Launch 1 -/

/-- The printed index maps over the 10 grid points: the input's and the output's block sit at block row `t`, block column
    0; the weight's and the bias row's block is always the one at (0, 0). -/
theorem index_maps1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- WHAT POINT `t` WRITES BACK is block `t` of `lin` of the three arrays as the launch finds them: the block's row `p`
    is the arrays' row `10000 t + p`. -/
theorem flushed1_eq (c : Dev nD) (t : Fin cfg1.N) :
    (dat1 V c).flushed 3 t = ((cfg1.win 3).blk t).view.read (Elt Ideal) (lin (V c main_arg0) (V c main_arg7) (V c main_v5)) := by
  show (cfg1.win 3).cut (grid1.coords t) ((dat1 V c).after 3 t) = _
  rw [after1_3]
  unfold out1_3
  rw [View.canon_unit_zero zero_offsets]
  simp only [View.ld_unit_zero (S := S10000x64) zero_offsets, View.ld_unit_zero (S := S64x64) zero_offsets, View.ld_unit_zero (S := S1x64) zero_offsets]
  obtain ⟨e0, e1, e2, e3, e4, e5, e6, e7⟩ := index_maps1 t
  have hN : cfg1.N = 10 := N_1
  have ht : t.val < 10 := by have := t.isLt; omega
  funext j
  obtain ⟨p, q, rfl⟩ : ∃ (p : Fin 10000) (q : Fin 64), j = ix2 p q := ⟨j 0, j 1, eq_ix2 j⟩
  have hp : p.val < 10000 := p.isLt
  have hrow : ((cfg1.win 3).blk t).view.emb (ix2 p q) = ix2 (⟨t.val * 10000 + p.val, by omega⟩ : Fin 100000) q := by
    funext a; apply Fin.ext
    match a with
    | ⟨0, _⟩ => show win1_3.index t (0 : Fin 2) * 10000 + 1 * p.val = t.val * 10000 + p.val; omega
    | ⟨1, _⟩ => show win1_3.index t (1 : Fin 2) * 64 + 1 * q.val = q.val; omega
  show k1_pay1 (F := Ideal) (iblk1 V c 0 t) (iblk1 V c 1 t) (iblk1 V c 2 t) (ix2 p q)
    = lin (V c main_arg0) (V c main_arg7) (V c main_v5) (((cfg1.win 3).blk t).view.emb (ix2 p q))
  refine (block_entry' (iblk1 V c 0 t) (iblk1 V c 1 t) (iblk1 V c 2 t) (V c main_arg0) (V c main_arg7) (V c main_v5) p q
    (⟨t.val * 10000 + p.val, by omega⟩ : Fin 100000) (fun k => ?_) (fun k => ?_) ?_).trans
    (congrArg (lin (V c main_arg0) (V c main_arg7) (V c main_v5)) hrow.symm)
  · show (V c main_arg0 : S100000x64.Idx → EReal) (((cfg1.win 0).blk t).view.emb (ix2 p k))
      = (V c main_arg0 : S100000x64.Idx → EReal) (ix2 (⟨t.val * 10000 + p.val, by omega⟩ : Fin 100000) k)
    refine congrArg (V c main_arg0 : S100000x64.Idx → EReal) (funext fun a => Fin.ext ?_)
    match a with
    | ⟨0, _⟩ => show win1_0.index t (0 : Fin 2) * 10000 + 1 * p.val = t.val * 10000 + p.val; omega
    | ⟨1, _⟩ => show win1_0.index t (1 : Fin 2) * 64 + 1 * k.val = k.val; omega
  · show (V c main_arg7 : S64x64.Idx → EReal) (((cfg1.win 1).blk t).view.emb (ix2 q k))
      = (V c main_arg7 : S64x64.Idx → EReal) (ix2 q k)
    refine congrArg (V c main_arg7 : S64x64.Idx → EReal) (funext fun a => Fin.ext ?_)
    match a with
    | ⟨0, _⟩ => show win1_1.index t (0 : Fin 2) * 64 + 1 * q.val = q.val; omega
    | ⟨1, _⟩ => show win1_1.index t (1 : Fin 2) * 64 + 1 * k.val = k.val; omega
  · show (V c main_v5 : S1x64.Idx → EReal) (((cfg1.win 2).blk t).view.emb (ix2 (0 : Fin 1) q))
      = (V c main_v5 : S1x64.Idx → EReal) (ix2 (0 : Fin 1) q)
    refine congrArg (V c main_v5 : S1x64.Idx → EReal) (funext fun a => Fin.ext ?_)
    match a with
    | ⟨0, _⟩ => show win1_2.index t (0 : Fin 2) * 1 + 1 * 0 = 0; omega
    | ⟨1, _⟩ => show win1_2.index t (1 : Fin 2) * 64 + 1 * q.val = q.val; omega

/-- An entry of the output array is in point `t`'s block iff each coordinate is in the block's range on its axis. -/
theorem mem_block1 (t : Fin cfg1.N) (i : S100000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v7).slice (win1_3.rect t)).set ↔ _
  rw [View.set_slice_whole, Rect.mem_set_unit]
  exact Iff.rfl

/-- EVERY ENTRY IS WRITTEN: row `r` lies in the block of point `r / 10000`, and every point writes back. -/
theorem covered1 (i : S100000x64.Idx) :
    ∃ t : Fin cfg1.N, (cfg1.win 3).flush t = true ∧ i ∈ ((cfg1.win 3).blk t).view.set := by
  have hi0 : (i 0).val < 100000 := idx2_lt0 i
  have hi1 : (i 1).val < 64 := idx2_lt1 i
  have hN : cfg1.N = 10 := N_1
  obtain ⟨t, ht⟩ : ∃ t : Fin cfg1.N, t.val = (i 0).val / 10000 := ⟨⟨(i 0).val / 10000, by omega⟩, rfl⟩
  obtain ⟨-, -, -, -, -, -, e6, e7⟩ := index_maps1 t
  refine ⟨t, flush1_3 t, ?_⟩
  rw [mem_block1]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 64 ≤ (i 1).val ∧ (i 1).val < win1_3.index t (1 : Fin 2) * 64 + 64; omega

/-- THE OUTPUT ARRAY after the run is `lin` of the three arrays as the launch finds them. -/
theorem array1 (c : Dev nD) :
    (dat1 V c).arrAt 3 cfg1.N = lin (V c main_arg0) (V c main_arg7) (V c main_v5) :=
  (dat1 V c).arrAt_eq_of_cover 3 (lin (V c main_arg0) (V c main_arg7) (V c main_v5)) (fun t _ => flushed1_eq V c t) (covered1)

/-- LAUNCH 1's output array after the run, at `(r, q)`. -/
theorem final1 (c : Dev nD) (r : Fin 100000) (q : Fin 64) :
    ((dat1 V c).arrAt 3 cfg1.N : S100000x64.Idx → EReal) (ix2 r q)
      = Cert.Spec.linRow (fun k => (V c main_arg0 : S100000x64.Idx → EReal) (ix2 r k))
          (fun k => (V c main_arg7 : S64x64.Idx → EReal) (ix2 q k))
        + (V c main_v5 : S1x64.Idx → EReal) (ix2 (0 : Fin 1) q) := by
  rw [array1 V c]
  rfl

end Cert.KernelIdeal.ProjValue

end
-- ==== Proof.LibKeepdims.lean ====
/-
  General layout reads for a reduction that keeps its axis (`keepdims=True`), stated over any extents:
  a vector `[a]` cast to a column `[a, 1]`, a column `[a, 1]` broadcast across `[a, b]`, and a lane sum of an
  `[a, b]` vector along its second axis read at a row as the sum over that row's columns.
  With the library's row broadcast `[1, b] → [a, b]` these are the index reads of a row-wise normalisation in a kernel
  body. The second part has the same reads in the host's spelling: `broadcast_in_dim` of a scalar, of a vector onto
  a column or a row, of a column or a row across a matrix, and the host's row sum with its initial value.
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibKeepdims

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float lane sum of an `[a, b]` vector along its second axis, read at row `p` on the extended reals, is the sum of
    that row's entries. The accumulator word and the reduction's two side conditions are variables, so the lemma meets a
    printed reduction however its evidence is spelt. -/
theorem rowSum_apply {a b : ℕ} (src : FVec Ideal ⟨2, ![a, b]⟩ .f32)
    (acc : BitVec FTy.f32.bits) (h : (⟨2, ![a, b]⟩ : Shape).Reduces [1] ⟨1, ![a]⟩) (hφ : FKind.Formats .f32)
    (hacc : acc = FKind.add.neutral .f32 hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-! ## The host's forms: `broadcast_in_dim` along named axes, and the host's sum -/

/-- A rank-0 array (a scalar constant) broadcast to any shape reads the scalar everywhere. -/
theorem broadcastInDim_scalar_apply {t : Shape} (c : (⟨0, ![]⟩ : Shape).Idx → α)
    (h : (⟨0, ![]⟩ : Shape).BroadcastsInDim t (![] : Fin 0 → Fin t.rank)) (j : t.Idx) :
    broadcastInDim t ![] h c j = c ix0 :=
  broadcastInDim_apply _ h c j ix0 (fun ax => ax.elim0)

/-- An `[a]` array placed on axis 0 of the column `[a, 1]` reads, at `(r, u)`, the operand at `r`. -/
theorem broadcastInDim_a_a1_apply {a : ℕ} (x : (⟨1, ![a]⟩ : Shape).Idx → α)
    (h : (⟨1, ![a]⟩ : Shape).BroadcastsInDim ⟨2, ![a, 1]⟩ (![0] : Fin 1 → Fin (⟨2, ![a, 1]⟩ : Shape).rank))
    (r : Fin a) (u : Fin 1) : broadcastInDim ⟨2, ![a, 1]⟩ ![0] h x (ix2 r u) = x (ix1 r) := by
  refine broadcastInDim_apply _ h x (ix2 r u) (ix1 r) fun ax => ?_
  match ax with
  | ⟨0, _⟩ =>
    show r.val = if a = 1 then 0 else r.val
    split
    · have := r.isLt; omega
    · rfl

/-- A column `[a, 1]` broadcast in place to `[a, b]` reads, at `(r, j)`, the column's entry of row `r`. -/
theorem broadcastInDim_a1_ab_apply {a b : ℕ} (x : (⟨2, ![a, 1]⟩ : Shape).Idx → α)
    (h : (⟨2, ![a, 1]⟩ : Shape).BroadcastsInDim ⟨2, ![a, b]⟩ (![0, 1] : Fin 2 → Fin (⟨2, ![a, b]⟩ : Shape).rank))
    (r : Fin a) (j : Fin b) : broadcastInDim ⟨2, ![a, b]⟩ ![0, 1] h x (ix2 r j) = x (ix2 r (0 : Fin 1)) := by
  refine broadcastInDim_apply _ h x (ix2 r j) (ix2 r (0 : Fin 1)) fun ax => ?_
  match ax with
  | ⟨0, _⟩ =>
    show r.val = if a = 1 then 0 else r.val
    split
    · have := r.isLt; omega
    · rfl
  | ⟨1, _⟩ => rfl

/-- A `[b]` array placed on axis 1 of the row `[1, b]` reads, at `(u, j)`, the operand at `j`. -/
theorem broadcastInDim_b_1b_apply {b : ℕ} (x : (⟨1, ![b]⟩ : Shape).Idx → α)
    (h : (⟨1, ![b]⟩ : Shape).BroadcastsInDim ⟨2, ![1, b]⟩ (![1] : Fin 1 → Fin (⟨2, ![1, b]⟩ : Shape).rank))
    (u : Fin 1) (j : Fin b) : broadcastInDim ⟨2, ![1, b]⟩ ![1] h x (ix2 u j) = x (ix1 j) := by
  refine broadcastInDim_apply _ h x (ix2 u j) (ix1 j) fun ax => ?_
  match ax with
  | ⟨0, _⟩ =>
    show j.val = if b = 1 then 0 else j.val
    split
    · have := j.isLt; omega
    · rfl

/-- A row `[1, b]` broadcast in place to `[a, b]` reads, at `(r, j)`, the row's entry of column `j`. -/
theorem broadcastInDim_1b_ab_apply {a b : ℕ} (x : (⟨2, ![1, b]⟩ : Shape).Idx → α)
    (h : (⟨2, ![1, b]⟩ : Shape).BroadcastsInDim ⟨2, ![a, b]⟩ (![0, 1] : Fin 2 → Fin (⟨2, ![a, b]⟩ : Shape).rank))
    (r : Fin a) (j : Fin b) : broadcastInDim ⟨2, ![a, b]⟩ ![0, 1] h x (ix2 r j) = x (ix2 (0 : Fin 1) j) := by
  refine broadcastInDim_apply _ h x (ix2 r j) (ix2 (0 : Fin 1) j) fun ax => ?_
  match ax with
  | ⟨0, _⟩ => rfl
  | ⟨1, _⟩ =>
    show j.val = if b = 1 then 0 else j.val
    split
    · have := j.isLt; omega
    · rfl

/-- The host's float sum of an `[a, b]` array along its second axis, read at row `r` on the extended reals: the
    initial scalar plus the sum of the row's entries. -/
theorem hostRowSum_apply {a b : ℕ} (X : FVec Ideal ⟨2, ![a, b]⟩ .f32) (init : (⟨0, ![]⟩ : Shape).Idx → Ideal .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduceAdd X init h' hu (ix1 r) = init ix0 + ∑ k : Fin b, X (ix2 r k) := by
  unfold Host.reduceAdd
  refine (Ideal.hostReduceAdd_single h' h X _ (ix1 r)).trans ?_
  refine congrArg₂ (· + ·) (congrArg init (funext fun ax => ax.elim0)) (Finset.sum_congr rfl fun k _ => ?_)
  exact congrArg X (funext fun ax => Fin.ext (by
    match ax with
    | ⟨0, _⟩ => rfl
    | ⟨1, _⟩ => rfl))

end Cert.LibKeepdims

end
-- ==== Proof.EdgeValue.lean ====
/-
  The per-edge launch, as a value: after its run the output array holds, at edge `e` and column `q`, the per-edge
  transform (`Cert.Spec.edgeRow`: LayerNorm, positive part, final linear layer and bias) of row `e` of the
  pre-activation the launch is entered with — whatever the contents `V` it is entered from. Every step of the body
  is local to a row; the row sums are the body's lane reductions.

  First the body's arithmetic on one block of 8000 rows, read row by row: the column of row means, the deviations,
  the column of reciprocal standard deviations, the scaled, shifted and cut-off block, and its product with the
  transposed weight plus the bias row; together they say that the stored value at `(p, q)` is entry `q` of the
  per-edge transform of row `p` of the block. Then from blocks to the array: point `t` of the 250 reads rows
  `8000 t … 8000 t + 7999` of the pre-activation and the four small arrays whole, and writes the same rows of the
  output; the blocks tile the two million rows, so the output array is one function of the entry arrays.
-/
import proofs.«404003_j32538672234882_3_alg».proof.Proof.Gen.KernelIdeal.Frame
import proofs.«404003_j32538672234882_3_alg».proof.Proof.Spec
import proofs.«404003_j32538672234882_3_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.EdgeValue

open Cert.KernelIdeal Cert.KernelIdeal.Gen Idealize.ShloMosaic Idealize.ShloMosaic.TcCoe Idealize.SL.Sem
open Idealize.ShloMosaic.Pipeline (Dat)
open Idealize.ShloMosaic.ValueIdx
open Cert.LibKeepdims

/-! ## The body's arithmetic on one block, row by row -/

/-- The column of row means of a block: each row's lane sum, set as a column, over the word for 64.0. -/
def meanCol (x : FVec Ideal S8000x64 .f32) : FVec Ideal S8000x1 .f32 :=
  divf (shapeCast S8000x1 (multiReduction .add [1] S8000 x 0x00000000#32 reduces_S8000x64_S8000 (.inl rfl) rfl)
    shapeCasts_S8000_S8000x1) (broadcast S8000x1 (Scalar.ofBits .f32 0x42800000#32))

/-- At row `p` the mean column holds the mean of that row's 64 entries. -/
theorem meanCol_apply (x : FVec Ideal S8000x64 .f32) (p : Fin 8000) (u : Fin 1) :
    meanCol x (ix2 p u) = Cert.Spec.mean64 (fun k => x (ix2 p k)) := by
  unfold meanCol Cert.Spec.mean64
  refine congrArg₂ Ideal.div ?_ rfl
  refine (shapeCast_a_a1_apply _ shapeCasts_S8000_S8000x1 p u).trans ?_
  exact rowSum_apply x 0x00000000#32 reduces_S8000x64_S8000 (.inl rfl) rfl p

/-- A block less its row means, the mean of a row spread along the row. -/
def devBlock (x : FVec Ideal S8000x64 .f32) : FVec Ideal S8000x64 .f32 :=
  subf x (broadcastTo S8000x64 (meanCol x) broadcasts_S8000x1_S8000x64)

/-- At `(p, k)` it holds the deviation of entry `k` of row `p` from that row's mean. -/
theorem devBlock_apply (x : FVec Ideal S8000x64 .f32) (p : Fin 8000) (k : Fin 64) :
    devBlock x (ix2 p k) = Cert.Spec.dev (fun k => x (ix2 p k)) k := by
  unfold devBlock Cert.Spec.dev
  refine congrArg₂ (· - ·) rfl ?_
  refine (broadcastTo_a1_ab_apply (meanCol x) broadcasts_S8000x1_S8000x64 p k).trans ?_
  exact meanCol_apply x p 0

/-- The column of reciprocal standard deviations: `rsqrt` of the mean squared deviation of each row plus the word for ε. -/
def rstdCol (x : FVec Ideal S8000x64 .f32) : FVec Ideal S8000x1 .f32 :=
  rsqrt (addf (meanCol (mulf (devBlock x) (devBlock x))) (broadcast S8000x1 (Scalar.ofBits .f32 0x3727C5AC#32)))

/-- At row `p` it holds that row's reciprocal standard deviation. -/
theorem rstdCol_apply (x : FVec Ideal S8000x64 .f32) (p : Fin 8000) (u : Fin 1) :
    rstdCol x (ix2 p u) = Cert.Spec.rstd (fun k => x (ix2 p k)) := by
  unfold rstdCol Cert.Spec.rstd
  refine congrArg Ideal.rsqrt (congrArg₂ (· + ·) ?_ rfl)
  refine (meanCol_apply (mulf (devBlock x) (devBlock x)) p u).trans ?_
  refine congrArg Cert.Spec.mean64 (funext fun k => ?_)
  exact congrArg₂ (· * ·) (devBlock_apply x p k) (devBlock_apply x p k)

/-- The normalised block scaled by the row `g`, shifted by the row `b`, and cut off below at the word for 0.0. -/
def actBlock (x : FVec Ideal S8000x64 .f32) (g b : FVec Ideal S1x64 .f32) : FVec Ideal S8000x64 .f32 :=
  maximumf
    (addf (mulf (mulf (devBlock x) (broadcastTo S8000x64 (rstdCol x) broadcasts_S8000x1_S8000x64))
      (broadcastTo S8000x64 g broadcasts_S1x64_S8000x64)) (broadcastTo S8000x64 b broadcasts_S1x64_S8000x64))
    (broadcast S8000x64 (Scalar.ofBits .f32 0x00000000#32))

/-- At `(p, k)` it holds entry `k` of the activated row `p`. -/
theorem actBlock_apply (x : FVec Ideal S8000x64 .f32) (g b : FVec Ideal S1x64 .f32) (p : Fin 8000) (k : Fin 64) :
    actBlock x g b (ix2 p k)
      = Cert.Spec.act (fun k => x (ix2 p k)) (fun k => g (ix2 (0 : Fin 1) k)) (fun k => b (ix2 (0 : Fin 1) k)) k := by
  unfold actBlock Cert.Spec.act
  refine congrArg₂ max (congrArg₂ (· + ·) (congrArg₂ (· * ·) (congrArg₂ (· * ·) ?_ ?_) ?_) ?_) rfl
  · exact devBlock_apply x p k
  · exact (broadcastTo_a1_ab_apply (rstdCol x) broadcasts_S8000x1_S8000x64 p k).trans (rstdCol_apply x p 0)
  · exact broadcastTo_1b_ab_apply g broadcasts_S1x64_S8000x64 p k
  · exact broadcastTo_1b_ab_apply b broadcasts_S1x64_S8000x64 p k

/-! ## The final linear layer: the matrix product with the transposed weight -/

/-- The product's operand indices at an output index and a contraction index, axis by axis: the left operand is read at
    (output row, contracted coordinate), the right one at (contracted coordinate, output column). -/
theorem lhs_contr_0 (i : S8000x64.Idx) (q : dot_S8000x64_S64x64_S8000x64_1_0_0_1_n_n.contr.Idx) :
    (dot_S8000x64_S64x64_S8000x64_1_0_0_1_n_n.lhsIdx i q 0).val = (i 0).val := by
  unfold DotDims.lhsIdx
  rw [dif_neg (show ¬(0 : Fin S8000x64.rank) ∈ dot_S8000x64_S64x64_S8000x64_1_0_0_1_n_n.lhsBatch by decide), dif_pos (show (0 : Fin S8000x64.rank) ∈ dot_S8000x64_S64x64_S8000x64_1_0_0_1_n_n.lhsNonContracting by decide)]
  rfl
theorem lhs_contr_1 (i : S8000x64.Idx) (q : dot_S8000x64_S64x64_S8000x64_1_0_0_1_n_n.contr.Idx) :
    (dot_S8000x64_S64x64_S8000x64_1_0_0_1_n_n.lhsIdx i q 1).val = (q ⟨0, by decide⟩).val :=
  dot_S8000x64_S64x64_S8000x64_1_0_0_1_n_n.lhsIdx_val_of_single rfl i q
theorem rhs_contr_0 (i : S8000x64.Idx) (q : dot_S8000x64_S64x64_S8000x64_1_0_0_1_n_n.contr.Idx) :
    (dot_S8000x64_S64x64_S8000x64_1_0_0_1_n_n.rhsIdx i q 0).val = (q ⟨0, by decide⟩).val :=
  dot_S8000x64_S64x64_S8000x64_1_0_0_1_n_n.rhsIdx_val_of_single rfl i q
theorem rhs_contr_1 (i : S8000x64.Idx) (q : dot_S8000x64_S64x64_S8000x64_1_0_0_1_n_n.contr.Idx) :
    (dot_S8000x64_S64x64_S8000x64_1_0_0_1_n_n.rhsIdx i q 1).val = (i 1).val := by
  unfold DotDims.rhsIdx
  rw [dif_neg (show ¬(1 : Fin S64x64.rank) ∈ dot_S8000x64_S64x64_S8000x64_1_0_0_1_n_n.rhsBatch by decide), dif_pos (show (1 : Fin S64x64.rank) ∈ dot_S8000x64_S64x64_S8000x64_1_0_0_1_n_n.rhsNonContracting by decide)]
  rfl

/-- The block's matrix product into a zero accumulator, at `(p, q)`: the sum over the contracted axis of row `p` of the
    left operand times column `q` of the right one. -/
theorem blockMatmul_apply (a : FVec Ideal S8000x64 .bf16) (wt : FVec Ideal S64x64 .bf16) (p : Fin 8000) (q : Fin 64) :
    matmul dot_S8000x64_S64x64_S8000x64_1_0_0_1_n_n none a wt (constant (F := Ideal) S8000x64 .f32 0x00000000#32) (ix2 p q)
      = ∑ k : Fin 64, a (ix2 p k) * wt (ix2 k q) := by
  simp only [matmul]
  rw [Ideal.matmul_constant_zero_apply, ← Equiv.sum_comp (contrEquiv1 dot_S8000x64_S64x64_S8000x64_1_0_0_1_n_n 64 rfl rfl).symm]
  refine Finset.sum_congr rfl fun k _ => ?_
  have hk := contrEquiv1_symm_val dot_S8000x64_S64x64_S8000x64_1_0_0_1_n_n 64 rfl rfl k
  have el : dot_S8000x64_S64x64_S8000x64_1_0_0_1_n_n.lhsIdx (ix2 p q) ((contrEquiv1 dot_S8000x64_S64x64_S8000x64_1_0_0_1_n_n 64 rfl rfl).symm k) = ix2 p k := funext fun ax => Fin.ext (by
    match ax with
    | ⟨0, _⟩ => exact lhs_contr_0 _ _
    | ⟨1, _⟩ => exact (lhs_contr_1 _ _).trans hk)
  have er : dot_S8000x64_S64x64_S8000x64_1_0_0_1_n_n.rhsIdx (ix2 p q) ((contrEquiv1 dot_S8000x64_S64x64_S8000x64_1_0_0_1_n_n 64 rfl rfl).symm k) = ix2 k q := funext fun ax => Fin.ext (by
    match ax with
    | ⟨0, _⟩ => exact (rhs_contr_0 _ _).trans hk
    | ⟨1, _⟩ => exact rhs_contr_1 _ _)
  rw [el, er]

/-! ## The payload at an index -/

/-- The body's stored value is the activated block (narrowed, which changes nothing on the extended reals) times the
    transposed weight, plus the bias row spread over the rows. -/
theorem payload_eq (x0 : Vec Ideal S8000x64 .f32) (g b : Vec Ideal S1x64 .f32) (w : Vec Ideal S64x64 .f32) (bf : Vec Ideal S1x64 .f32) :
    k2_pay1 x0 g b w bf
      = addf (matmul dot_S8000x64_S64x64_S8000x64_1_0_0_1_n_n none (truncf (F := Ideal) .bf16 (actBlock x0 g b) bitsLt_bf16_f32)
            (transpose S64x64 [1, 0] (truncf (F := Ideal) .bf16 w bitsLt_bf16_f32) transposes_S64x64_p1_0_S64x64)
            (constant (F := Ideal) S8000x64 .f32 0x00000000#32))
          (broadcastTo S8000x64 bf broadcasts_S1x64_S8000x64) := by
  unfold k2_pay1
  simp only [shapeCast_self]
  rfl

/-- The body's stored value at `(p, q)` is entry `q` of the per-edge transform of row `p` of the block. -/
theorem payload_apply (x0 : Vec Ideal S8000x64 .f32) (g b : Vec Ideal S1x64 .f32) (w : Vec Ideal S64x64 .f32) (bf : Vec Ideal S1x64 .f32)
    (p : Fin 8000) (q : Fin 64) :
    k2_pay1 x0 g b w bf (ix2 p q)
      = Cert.Spec.edgeRow (fun k => x0 (ix2 p k)) (fun k => g (ix2 (0 : Fin 1) k)) (fun k => b (ix2 (0 : Fin 1) k))
          (fun q' k => w (ix2 q' k)) (fun k => bf (ix2 (0 : Fin 1) k)) q := by
  refine (congrFun (payload_eq x0 g b w bf) (ix2 p q)).trans ?_
  unfold Cert.Spec.edgeRow Cert.Spec.linRow
  refine congrArg₂ (· + ·) ?_ (broadcastTo_1b_ab_apply bf broadcasts_S1x64_S8000x64 p q)
  refine (blockMatmul_apply _ _ p q).trans (Finset.sum_congr rfl fun k _ => ?_)
  refine congrArg₂ (· * ·) (actBlock_apply x0 g b p k) ?_
  exact transpose_ix2_apply (truncf (F := Ideal) .bf16 w bitsLt_bf16_f32) transposes_S64x64_p1_0_S64x64 k q

/-! ## From blocks to the array -/

variable (V : (c : Dev nD) → (b : Ref sig .tc) → Buf (Elt Ideal) ((c : Thread nD τ).loc b))

/-- The body's loads and its one store start at the origin of their buffers. -/
theorem zeroOffsets : (![0, 0] : Fin 2 → Nat) = fun _ => 0 := funext fun a => by fin_cases a <;> rfl

/-- The output array as ONE function of the arrays the launch is entered with: at `(e, q)`, entry `q` of the per-edge
    transform of row `e` of the pre-activation, under the scale, shift, weight and bias arrays. -/
def edgeArr (c : Dev nD) : S2000000x64.Idx → EReal := fun i =>
  Cert.Spec.edgeRow (fun k => (V c main_v13 : S2000000x64.Idx → EReal) (ix2 (i 0 : Fin 2000000) k))
    (fun k => (V c main_v14 : S1x64.Idx → EReal) (ix2 (0 : Fin 1) k))
    (fun k => (V c main_v15 : S1x64.Idx → EReal) (ix2 (0 : Fin 1) k))
    (fun q' k => (V c main_arg10 : S64x64.Idx → EReal) (ix2 q' k))
    (fun k => (V c main_v16 : S1x64.Idx → EReal) (ix2 (0 : Fin 1) k)) (i 1 : Fin 64)

/-- That function at an index whose coordinates are `e` and `q`. -/
theorem edgeArr_apply (c : Dev nD) (i : S2000000x64.Idx) (e : Fin 2000000) (q : Fin 64)
    (he : (i 0).val = e.val) (hq : (i 1).val = q.val) :
    edgeArr V c i
      = Cert.Spec.edgeRow (fun k => (V c main_v13 : S2000000x64.Idx → EReal) (ix2 e k))
          (fun k => (V c main_v14 : S1x64.Idx → EReal) (ix2 (0 : Fin 1) k))
          (fun k => (V c main_v15 : S1x64.Idx → EReal) (ix2 (0 : Fin 1) k))
          (fun q' k => (V c main_arg10 : S64x64.Idx → EReal) (ix2 q' k))
          (fun k => (V c main_v16 : S1x64.Idx → EReal) (ix2 (0 : Fin 1) k)) q := by
  obtain rfl : i = ix2 e q := funext fun a => Fin.ext (by
    match a with
    | ⟨0, _⟩ => exact he
    | ⟨1, _⟩ => exact hq)
  rfl

/-- The index maps over the 250 grid points: point `t` takes block `t` of the rows of the pre-activation and of the
    output, all 64 columns; the four small operands are whole arrays at every point. -/
theorem index_facts : ∀ t : Fin cfg2.N,
    win2_0.index t (0 : Fin 2) = t.val ∧ win2_0.index t (1 : Fin 2) = 0
    ∧ win2_5.index t (0 : Fin 2) = t.val ∧ win2_5.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

/-- Block `t` of the pre-activation: its row `p` is row `8000 t + p` of the array. -/
theorem preact_block (c : Dev nD) (t : Fin cfg2.N) (p : Fin 8000) (k : Fin 64) (r : Fin 2000000)
    (hr : r.val = t.val * 8000 + p.val) :
    (iblk2 V c 0 t : Vec Ideal S8000x64 .f32) (ix2 p k) = (V c main_v13 : S2000000x64.Idx → EReal) (ix2 r k) := by
  obtain ⟨e0, e1, -⟩ := index_facts t
  unfold iblk2
  rw [View.read_apply]
  show (V c main_v13 : S2000000x64.Idx → EReal) (((cfg2.win 0).blk t).view.emb (ix2 p k)) = _
  refine congrArg _ (funext fun a => Fin.ext ?_)
  match a with
  | ⟨0, _⟩ => show win2_0.index t (0 : Fin 2) * 8000 + 1 * p.val = r.val; omega
  | ⟨1, _⟩ => show win2_0.index t (1 : Fin 2) * 64 + 1 * k.val = k.val; omega

/-- The scale row's block is the scale array at every point. -/
theorem scale_block (c : Dev nD) (t : Fin cfg2.N) (k : Fin 64) :
    (iblk2 V c 1 t : Vec Ideal S1x64 .f32) (ix2 (0 : Fin 1) k) = (V c main_v14 : S1x64.Idx → EReal) (ix2 (0 : Fin 1) k) := by
  obtain ⟨-, -, -, -, e0, e1, -⟩ := index_facts t
  unfold iblk2
  rw [View.read_apply]
  show (V c main_v14 : S1x64.Idx → EReal) (((cfg2.win 1).blk t).view.emb (ix2 (0 : Fin 1) k)) = _
  refine congrArg _ (funext fun a => Fin.ext ?_)
  match a with
  | ⟨0, _⟩ => show win2_1.index t (0 : Fin 2) * 1 + 1 * 0 = 0; omega
  | ⟨1, _⟩ => show win2_1.index t (1 : Fin 2) * 64 + 1 * k.val = k.val; omega

/-- The shift row's block is the shift array at every point. -/
theorem shift_block (c : Dev nD) (t : Fin cfg2.N) (k : Fin 64) :
    (iblk2 V c 2 t : Vec Ideal S1x64 .f32) (ix2 (0 : Fin 1) k) = (V c main_v15 : S1x64.Idx → EReal) (ix2 (0 : Fin 1) k) := by
  obtain ⟨-, -, -, -, -, -, e0, e1, -⟩ := index_facts t
  unfold iblk2
  rw [View.read_apply]
  show (V c main_v15 : S1x64.Idx → EReal) (((cfg2.win 2).blk t).view.emb (ix2 (0 : Fin 1) k)) = _
  refine congrArg _ (funext fun a => Fin.ext ?_)
  match a with
  | ⟨0, _⟩ => show win2_2.index t (0 : Fin 2) * 1 + 1 * 0 = 0; omega
  | ⟨1, _⟩ => show win2_2.index t (1 : Fin 2) * 64 + 1 * k.val = k.val; omega

/-- The weight's block is the weight array at every point. -/
theorem weight_block (c : Dev nD) (t : Fin cfg2.N) (q' k : Fin 64) :
    (iblk2 V c 3 t : Vec Ideal S64x64 .f32) (ix2 q' k) = (V c main_arg10 : S64x64.Idx → EReal) (ix2 q' k) := by
  obtain ⟨-, -, -, -, -, -, -, -, e0, e1, -⟩ := index_facts t
  unfold iblk2
  rw [View.read_apply]
  show (V c main_arg10 : S64x64.Idx → EReal) (((cfg2.win 3).blk t).view.emb (ix2 q' k)) = _
  refine congrArg _ (funext fun a => Fin.ext ?_)
  match a with
  | ⟨0, _⟩ => show win2_3.index t (0 : Fin 2) * 64 + 1 * q'.val = q'.val; omega
  | ⟨1, _⟩ => show win2_3.index t (1 : Fin 2) * 64 + 1 * k.val = k.val; omega

/-- The bias row's block is the bias array at every point. -/
theorem bias_block (c : Dev nD) (t : Fin cfg2.N) (k : Fin 64) :
    (iblk2 V c 4 t : Vec Ideal S1x64 .f32) (ix2 (0 : Fin 1) k) = (V c main_v16 : S1x64.Idx → EReal) (ix2 (0 : Fin 1) k) := by
  obtain ⟨-, -, -, -, -, -, -, -, -, -, e0, e1⟩ := index_facts t
  unfold iblk2
  rw [View.read_apply]
  show (V c main_v16 : S1x64.Idx → EReal) (((cfg2.win 4).blk t).view.emb (ix2 (0 : Fin 1) k)) = _
  refine congrArg _ (funext fun a => Fin.ext ?_)
  match a with
  | ⟨0, _⟩ => show win2_4.index t (0 : Fin 2) * 1 + 1 * 0 = 0; omega
  | ⟨1, _⟩ => show win2_4.index t (1 : Fin 2) * 64 + 1 * k.val = k.val; omega

/-- What point `t` writes back is block `t` of that one function: each stored entry is the per-edge transform of a row of
    the point's block, which is a row of the pre-activation array. -/
theorem written_block (c : Dev nD) (t : Fin cfg2.N) :
    (dat2 V c).flushed 5 t = ((cfg2.win 5).blk t).view.read (Elt Ideal) (edgeArr V c) := by
  show (cfg2.win 5).cut (grid2.coords t) ((dat2 V c).after 5 t) = _
  rw [after2_5]
  unfold out2_5
  rw [View.canon_unit_zero zeroOffsets]
  simp only [View.ld_unit_zero (S := S8000x64) zeroOffsets, View.ld_unit_zero (S := S1x64) zeroOffsets,
    View.ld_unit_zero (S := S64x64) zeroOffsets]
  obtain ⟨-, -, e2, e3, -⟩ := index_facts t
  refine funext fun (j : S8000x64.Idx) => ?_
  obtain ⟨p, q, rfl⟩ : ∃ (p : Fin 8000) (q : Fin 64), j = ix2 p q := ⟨j 0, j 1, eq_ix2 j⟩
  show k2_pay1 (iblk2 V c 0 t) (iblk2 V c 1 t) (iblk2 V c 2 t) (iblk2 V c 3 t) (iblk2 V c 4 t) (ix2 p q)
    = edgeArr V c (((cfg2.win 5).blk t).view.emb (ix2 p q))
  refine (payload_apply (iblk2 V c 0 t) (iblk2 V c 1 t) (iblk2 V c 2 t) (iblk2 V c 3 t) (iblk2 V c 4 t) p q).trans ?_
  have hp : t.val * 8000 + p.val < 2000000 := by
    have ht : t.val < 250 := lt_of_lt_of_eq t.isLt N_2
    have := p.isLt; omega
  refine Eq.trans ?_ (edgeArr_apply V c (((cfg2.win 5).blk t).view.emb (ix2 p q)) ⟨t.val * 8000 + p.val, hp⟩ q
    (by show win2_5.index t (0 : Fin 2) * 8000 + 1 * p.val = t.val * 8000 + p.val; omega)
    (by show win2_5.index t (1 : Fin 2) * 64 + 1 * q.val = q.val; omega)).symm
  congr 1
  · funext k; exact preact_block V c t p k _ rfl
  · funext k; exact scale_block V c t k
  · funext k; exact shift_block V c t k
  · funext q' k; exact weight_block V c t q' k
  · funext k; exact bias_block V c t k

/-- An index of the output array is in point `t`'s block iff each coordinate is in the block's range on its axis. -/
theorem mem_block (t : Fin cfg2.N) (i : S2000000x64.Idx) :
    i ∈ ((cfg2.win 5).blk t).view.set ↔ ∀ a : Fin 2, win2_5.index t a * S8000x64.size a ≤ (i a).val ∧ (i a).val < win2_5.index t a * S8000x64.size a + S8000x64.size a := by
  show i ∈ ((View.whole main_v17).slice (win2_5.rect t)).set ↔ _
  rw [View.set_slice_whole, Rect.mem_set_unit]
  exact Iff.rfl

/-- The 250 blocks of 8000 rows tile the two million rows: row `r` lies in the block of point `r / 8000`. -/
theorem covered (i : S2000000x64.Idx) :
    ∃ t : Fin cfg2.N, (cfg2.win 5).flush t = true ∧ i ∈ ((cfg2.win 5).blk t).view.set := by
  have hi0 : (i 0).val < 2000000 := (i 0).isLt
  have hi1 : (i 1).val < 64 := (i 1).isLt
  obtain ⟨t, ht⟩ : ∃ t : Fin cfg2.N, t.val = (i 0).val / 8000 :=
    ⟨⟨(i 0).val / 8000, lt_of_lt_of_eq (by omega : (i 0).val / 8000 < 250) N_2.symm⟩, rfl⟩
  obtain ⟨-, -, e2, e3, -⟩ := index_facts t
  refine ⟨t, flush2_5 t, ?_⟩
  rw [mem_block]
  intro a
  match a with
  | ⟨0, _⟩ => show win2_5.index t (0 : Fin 2) * 8000 ≤ (i 0).val ∧ (i 0).val < win2_5.index t (0 : Fin 2) * 8000 + 8000; omega
  | ⟨1, _⟩ => show win2_5.index t (1 : Fin 2) * 64 ≤ (i 1).val ∧ (i 1).val < win2_5.index t (1 : Fin 2) * 64 + 64; omega

/-- LAUNCH 2's output array after the run, at `(e, q)`. -/
theorem final2 (c : Dev nD) (e : Fin 2000000) (q : Fin 64) :
    ((dat2 V c).arrAt 5 cfg2.N : S2000000x64.Idx → EReal) (ix2 e q)
      = Cert.Spec.edgeRow (fun k => (V c main_v13 : S2000000x64.Idx → EReal) (ix2 e k))
          (fun k => (V c main_v14 : S1x64.Idx → EReal) (ix2 (0 : Fin 1) k))
          (fun k => (V c main_v15 : S1x64.Idx → EReal) (ix2 (0 : Fin 1) k))
          (fun q' k => (V c main_arg10 : S64x64.Idx → EReal) (ix2 q' k))
          (fun k => (V c main_v16 : S1x64.Idx → EReal) (ix2 (0 : Fin 1) k)) q := by
  refine (congrFun ((dat2 V c).arrAt_eq_of_cover 5 (edgeArr V c) (fun t _ => written_block V c t) covered) (ix2 e q)).trans ?_
  exact edgeArr_apply V c (ix2 e q) e q rfl rfl

end Cert.KernelIdeal.EdgeValue

end
-- ==== Proof.PreRange.lean ====
/-
  What the precondition says of the edge list: every source row number (row 0 of the edge list), read signed, lies in
  `[-100000, 100000)` — the numbers at which indexing a table of 100000 rows is defined.
-/
import proofs.«404003_j32538672234882_3_alg».proof.Defs
import proofs.«404003_j32538672234882_3_alg».proof.Proof.Gen.Pre_finite_inputs
import proofs.«404003_j32538672234882_3_alg».proof.Proof.Gen.KernelIdeal
import Idealize.ShloMosaic.Lib.ValueIdx
import Idealize.ShloMosaic.Lib.Pipeline.Value
import Idealize.ShloMosaic.Lib.ReduceAll
import Idealize.ShloMosaic.Lib.StableHlo.Predicate

noncomputable section

namespace Cert.PreRange

open Idealize.ShloMosaic Idealize.ShloMosaic.ValueIdx Idealize.SL.Sem

/-- A rank-zero array has one index. -/
instance : Subsingleton Cert.Pre_finite_inputs.S_.Idx := ⟨fun a b => funext fun d => d.elim0⟩

/-- Row 0 of a `[2, 2000000]` array as a vector, in the precondition's own words: the slice at `(0, 0)`, reshaped. -/
abbrev row0 [Cert.Pre_finite_inputs.Facts] (x3 : IVec Cert.Pre_finite_inputs.S2x2000000 32) :
    IVec Cert.Pre_finite_inputs.S2000000 32 :=
  shapeCast Cert.Pre_finite_inputs.S2000000
    (extractStridedSlice Cert.Pre_finite_inputs.S1x2000000 ![0, 0] x3 Cert.Pre_finite_inputs.Facts.slices_S2x2000000_S1x2000000_0_0)
    Cert.Pre_finite_inputs.Facts.shapeCasts_S1x2000000_S2000000

/-- Entry `e` of row 0 is the array's entry `(0, e)`: the reshape keeps the row-major position `0 * 2000000 + e`, and
    the slice starts at the array's origin. -/
theorem row0_apply [Cert.Pre_finite_inputs.Facts] (x3 : IVec Cert.Pre_finite_inputs.S2x2000000 32) (e : Fin 2000000) :
    row0 x3 (ix1 e) = x3 (ix2 (0 : Fin 2) e) := by
  refine (shapeCast_apply _ Cert.Pre_finite_inputs.Facts.shapeCasts_S1x2000000_S2000000 (ix1 e) (ix2 (0 : Fin 1) e) ?_).trans ?_
  · rewrite [Shape.rowMajor_val_two, Shape.rowMajor_val_one]
    have he : e.val < 2000000 := e.isLt
    show (0 : Nat) * 2000000 + e.val = e.val
    omega
  · exact extractStridedSlice_apply ![0, 0] x3 Cert.Pre_finite_inputs.Facts.slices_S2x2000000_S1x2000000_0_0
      (ix2 (0 : Fin 1) e) (ix2 (0 : Fin 2) e)
      (fun a => match a with
        | ⟨0, _⟩ => by show (0 : Nat) = 0 + 0; omega
        | ⟨1, _⟩ => by show e.val = 0 + e.val; omega)

/-- The two compare bits at edge `e`, read as facts about the signed value of entry `(0, e)`: the lower constant's
    pattern `4294867296` reads signed as `-100000`. -/
theorem range_of_bits [Cert.Pre_finite_inputs.Facts] (x3 : IVec Cert.Pre_finite_inputs.S2x2000000 32) (e : Fin 2000000)
    (hge : cmpi .sge (row0 x3)
      (broadcastInDim Cert.Pre_finite_inputs.S2000000 ![] Cert.Pre_finite_inputs.Facts.bcast_S_S2000000
        (constantI Cert.Pre_finite_inputs.S_ 32 4294867296#32)) (ix1 e) = 1#1)
    (hlt : cmpi .slt (row0 x3)
      (broadcastInDim Cert.Pre_finite_inputs.S2000000 ![] Cert.Pre_finite_inputs.Facts.bcast_S_S2000000
        (constantI Cert.Pre_finite_inputs.S_ 32 100000#32)) (ix1 e) = 1#1) :
    -100000 ≤ (x3 (ix2 (0 : Fin 2) e)).toInt ∧ (x3 (ix2 (0 : Fin 2) e)).toInt < 100000 := by
  have h1 : (4294867296#32 : BitVec 32).toInt ≤ (row0 x3 (ix1 e)).toInt := IntOp.cmpi_sge.1 hge
  have h2 : (row0 x3 (ix1 e)).toInt < (100000#32 : BitVec 32).toInt := IntOp.cmpi_slt.1 hlt
  rw [row0_apply] at h1 h2
  have c1 : (4294867296#32 : BitVec 32).toInt = -100000 := by decide
  have c2 : (100000#32 : BitVec 32).toInt = 100000 := by decide
  rw [c1] at h1
  rw [c2] at h2
  exact ⟨h1, h2⟩

/-- Under the precondition, on every core, every entry of row 0 of the edge list is in `[-100000, 100000)`. -/
theorem src_range [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (e : Fin 2000000) :
    -100000 ≤ ((m ((c.tc : Thread Cert.KernelIdeal.nD Cert.KernelIdeal.τ).loc Cert.KernelIdeal.main_arg3)
        : Cert.KernelIdeal.S2x2000000.Idx → BitVec 32) (ix2 (0 : Fin 2) e)).toInt
      ∧ ((m ((c.tc : Thread Cert.KernelIdeal.nD Cert.KernelIdeal.τ).loc Cert.KernelIdeal.main_arg3)
        : Cert.KernelIdeal.S2x2000000.Idx → BitVec 32) (ix2 (0 : Fin 2) e)).toInt < 100000 := by
  -- the predicate's one word is 1; it is an `and` whose last two conjuncts are the two range tests over all edges
  have e0 := congrFun (h c) ix0
  dsimp only [Cert.Pre_finite_inputs.fn, Cert.Pre_finite_inputs.fn_part1, Cert.Pre_finite_inputs.fn_part2,
    Cert.Pre_finite_inputs.fn_part3] at e0
  obtain ⟨h1, hlt⟩ := IntOp.andi_eq_one.1 e0
  obtain ⟨-, hge⟩ := IntOp.andi_eq_one.1 h1
  -- each test is an `and` over every edge, so it holds at edge `e`
  exact range_of_bits _ e (Host.reduce_andi_all _ _ _ _ _ hge (ix1 e)) (Host.reduce_andi_all _ _ _ _ _ hlt (ix1 e))

end Cert.PreRange

end
-- ==== Proof.LibHostRead.lean ====
/-
  Two readings at the ideal values that the library's index vocabulary does not have: the host's float quotient at an
  index, and a 32-bit index word read signed that lands in a range [0, K).
-/
import Idealize.ShloMosaic.PureOps.Ideal
import Idealize.ShloMosaic.Lib.ValueIdx

namespace Idealize.ShloMosaic.ValueIdx

open Idealize.ShloMosaic

/-- The host's float quotient (`stablehlo.divide`) read at an index, at the ideal values: the extended reals' quotient
    of the operands' entries (the host's twin of `divf_apply`). -/
theorem hostDivf_apply {s : Shape} {φ : FTy} (a b : FVec Ideal s φ) (i : s.Idx) :
    Host.divf a b i = Ideal.div (a i) (b i) := rfl

/-- A 32-bit word read SIGNED lies in [0, K) at the natural number `k < K` (with K ≤ 2³¹) exactly when the word read
    UNSIGNED is `k`: what a scatter's or a gather's start index, which is read signed and dropped outside the operand,
    says of an index word when the target position is inside the operand. -/
theorem toInt_lands_iff (w : BitVec 32) {K : ℤ} {k : ℕ} (hK : K ≤ 2 ^ 31) (hk : (k : ℤ) < K) :
    (0 ≤ w.toInt ∧ w.toInt < K ∧ w.toInt.toNat = k) ↔ w.toNat = k := by
  have h := w.isLt
  rw [BitVec.toInt_eq_toNat_cond]
  split <;> omega

end Idealize.ShloMosaic.ValueIdx
-- ==== Proof.RefValue.lean ====
/-
  The reference's stages read at an index, in the vocabulary of `Cert.Spec`: the two projections of the node
  features are linear-layer entries, and the per-edge message at `(e, q)` is the per-edge transform of row `e` of the
  reference's pre-activation. The host's row sums carry a zero initial value, its quotient and reciprocal square root
  are the extended reals', and its matrix products are sums over the contracted axis.
-/
import proofs.«404003_j32538672234882_3_alg».proof.Proof.Gen.ReferenceIdeal.Run
import proofs.«404003_j32538672234882_3_alg».proof.Proof.Gen.ReferenceIdeal.Read
import proofs.«404003_j32538672234882_3_alg».proof.Proof.Spec
import proofs.«404003_j32538672234882_3_alg».proof.Proof.LibKeepdims
import proofs.«404003_j32538672234882_3_alg».proof.Proof.LibHostRead
import Idealize.ShloMosaic.Lib.ValueIdx
import Idealize.ShloMosaic.Lib.ValueLayout
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

variable (x0 x1 : FVec Ideal S100000x64 .f32) (x2 : FVec Ideal S2000000x2 .f32) (x3 : IVec S2x2000000 32) (x4 : FVec Ideal S64x64 .f32) (x5 : FVec Ideal S64 .f32) (x6 : FVec Ideal S64x2 .f32) (x7 : FVec Ideal S64x64 .f32) (x8 x9 : FVec Ideal S64 .f32) (x10 : FVec Ideal S64x64 .f32) (x11 : FVec Ideal S64 .f32)

/-! ## Where the reference's layout stages read

Each equation says which entry of its operand a transpose, a broadcast, a row sum or a matrix product reads when the
result is read at an index given by its coordinates. -/

/-- The product for the right-hand projection reads row `r` of the node features. -/
theorem projI_lhs_index (r : Fin 100000) (q k : Fin 64) : lidx_main_v5 (ix2 r q) k = ix2 r k :=
  funext fun a => Fin.ext (by match a with | ⟨0, _⟩ => rfl | ⟨1, _⟩ => rfl)

/-- Through the transpose, the product for the right-hand projection reads row `q` of the weight. -/
theorem projI_rhs_index (r : Fin 100000) (q k : Fin 64) : idx_main_v4 (ridx_main_v5 (ix2 r q) k) = ix2 q k :=
  funext fun a => Fin.ext (by match a with | ⟨0, _⟩ => rfl | ⟨1, _⟩ => rfl)

/-- The right-hand projection's bias, laid along the rows, is read at the column. -/
theorem projI_bias_index (r : Fin 100000) (q : Fin 64) : idx_main_v6 (idx_main_v7 (ix2 r q)) = ix1 q :=
  funext fun a => Fin.ext (by match a with | ⟨0, _⟩ => rfl)

/-- The product for the left-hand projection reads row `r` of the node features. -/
theorem projJ_lhs_index (r : Fin 100000) (q k : Fin 64) : lidx_main_v17 (ix2 r q) k = ix2 r k :=
  funext fun a => Fin.ext (by match a with | ⟨0, _⟩ => rfl | ⟨1, _⟩ => rfl)

/-- Through the transpose, the product for the left-hand projection reads row `q` of the weight. -/
theorem projJ_rhs_index (r : Fin 100000) (q k : Fin 64) : idx_main_v16 (ridx_main_v17 (ix2 r q) k) = ix2 q k :=
  funext fun a => Fin.ext (by match a with | ⟨0, _⟩ => rfl | ⟨1, _⟩ => rfl)

/-- The first row sum at row `e` runs over that row's entries. -/
theorem sum_index (e : Fin 2000000) (k : Fin 64) : idx_main_v29 (ix1 e) k = ix2 e k :=
  funext fun a => Fin.ext (by match a with | ⟨0, _⟩ => rfl | ⟨1, _⟩ => rfl)

/-- The row sums, stood up as a column, are read at the row. -/
theorem sum_column_index (e : Fin 2000000) (u : Fin 1) : idx_main_v30 (ix2 e u) = ix1 e :=
  funext fun a => Fin.ext (by match a with | ⟨0, _⟩ => rfl)

/-- The column of means spread across the row, for the deviations that are squared. -/
theorem mean_spread_index (e : Fin 2000000) (k : Fin 64) : idx_main_v33 (ix2 e k) = ix2 e (0 : Fin 1) :=
  funext fun a => Fin.ext (by match a with | ⟨0, _⟩ => rfl | ⟨1, _⟩ => rfl)

/-- The second row sum at row `e` runs over that row's entries. -/
theorem sqsum_index (e : Fin 2000000) (k : Fin 64) : idx_main_v36 (ix1 e) k = ix2 e k :=
  funext fun a => Fin.ext (by match a with | ⟨0, _⟩ => rfl | ⟨1, _⟩ => rfl)

/-- The sums of squares, stood up as a column, are read at the row. -/
theorem sqsum_column_index (e : Fin 2000000) (u : Fin 1) : idx_main_v37 (ix2 e u) = ix1 e :=
  funext fun a => Fin.ext (by match a with | ⟨0, _⟩ => rfl)

/-- The column of means spread across the row, for the deviations that are normalised. -/
theorem mean_spread_index' (e : Fin 2000000) (k : Fin 64) : idx_main_v40 (ix2 e k) = ix2 e (0 : Fin 1) :=
  funext fun a => Fin.ext (by match a with | ⟨0, _⟩ => rfl | ⟨1, _⟩ => rfl)

/-- The column of reciprocal standard deviations spread across the row. -/
theorem rstd_spread_index (e : Fin 2000000) (k : Fin 64) : idx_main_v45 (ix2 e k) = ix2 e (0 : Fin 1) :=
  funext fun a => Fin.ext (by match a with | ⟨0, _⟩ => rfl | ⟨1, _⟩ => rfl)

/-- The scale, laid along the rows, is read at the column. -/
theorem scale_index (e : Fin 2000000) (k : Fin 64) : idx_main_v47 (idx_main_v48 (ix2 e k)) = ix1 k :=
  funext fun a => Fin.ext (by match a with | ⟨0, _⟩ => rfl)

/-- The shift, laid along the rows, is read at the column. -/
theorem shift_index (e : Fin 2000000) (k : Fin 64) : idx_main_v50 (idx_main_v51 (ix2 e k)) = ix1 k :=
  funext fun a => Fin.ext (by match a with | ⟨0, _⟩ => rfl)

/-- The final product reads row `e` of the activated rows. -/
theorem final_lhs_index (e : Fin 2000000) (q k : Fin 64) : lidx_main_v55 (ix2 e q) k = ix2 e k :=
  funext fun a => Fin.ext (by match a with | ⟨0, _⟩ => rfl | ⟨1, _⟩ => rfl)

/-- Through the transpose, the final product reads row `q` of the final weight. -/
theorem final_rhs_index (e : Fin 2000000) (q k : Fin 64) : idx_main_v54 (ridx_main_v55 (ix2 e q) k) = ix2 q k :=
  funext fun a => Fin.ext (by match a with | ⟨0, _⟩ => rfl | ⟨1, _⟩ => rfl)

/-- The final bias, laid along the rows, is read at the column. -/
theorem final_bias_index (e : Fin 2000000) (q : Fin 64) : idx_main_v56 (idx_main_v57 (ix2 e q)) = ix1 q :=
  funext fun a => Fin.ext (by match a with | ⟨0, _⟩ => rfl)

/-! ## The two projections -/

/-- The projected right-hand node features at `(r, q)`. -/
theorem projI_apply (r : Fin 100000) (q : Fin 64) :
    val_main_v8 (F := Ideal) x1 x4 x5 (ix2 r q)
      = Cert.Spec.linRow (fun k => x1 (ix2 r k)) (fun k => x4 (ix2 q k)) + x5 (ix1 q) := by
  rw [val_main_v8_apply, val_main_v7_apply, val_main_v6_apply, projI_bias_index, val_main_v5_apply, Ideal.addf_def]
  unfold Cert.Spec.linRow
  refine congrArg (· + x5 (ix1 q)) (Finset.sum_congr rfl fun k _ => ?_)
  rw [projI_lhs_index, val_main_v4_apply, projI_rhs_index]

/-- The projected left-hand node features at `(r, q)`. -/
theorem projJ_apply (r : Fin 100000) (q : Fin 64) :
    val_main_v17 (F := Ideal) x0 x7 (ix2 r q)
      = Cert.Spec.linRow (fun k => x0 (ix2 r k)) (fun k => x7 (ix2 q k)) := by
  rw [val_main_v17_apply]
  unfold Cert.Spec.linRow
  refine Finset.sum_congr rfl fun k _ => ?_
  rw [projJ_lhs_index, val_main_v16_apply, projJ_rhs_index]

/-! ## The per-edge transform, stage by stage

Throughout, the row is row `e` of the pre-activation, `fun k => val_main_v28 … (ix2 e k)`; every stage below holds
whatever that row's entries are. -/

/-- The column of row means at row `e`: the row's sum, from a zero initial value, over the word for 64.0. -/
theorem rowMean_apply (e : Fin 2000000) (u : Fin 1) :
    val_main_v32 (F := Ideal) x0 x1 x2 x3 x4 x5 x6 x7 (ix2 e u)
      = Cert.Spec.mean64 (fun k => val_main_v28 (F := Ideal) x0 x1 x2 x3 x4 x5 x6 x7 (ix2 e k)) := by
  rw [val_main_v32_apply, val_main_v31_apply, val_main_cst_3_apply, val_main_v30_apply, sum_column_index,
    val_main_v29_apply, val_main_cst_apply]
  simp only [sum_index, Ideal.hostDivf_def, Ideal.ofBits_def, Ideal.ofBits_zero_f32, zero_add]
  rfl

/-- The deviation from the row mean that the reference squares. -/
theorem devSq_apply (e : Fin 2000000) (k : Fin 64) :
    val_main_v34 (F := Ideal) x0 x1 x2 x3 x4 x5 x6 x7 (ix2 e k)
      = Cert.Spec.dev (fun k => val_main_v28 (F := Ideal) x0 x1 x2 x3 x4 x5 x6 x7 (ix2 e k)) k := by
  rw [val_main_v34_apply, val_main_v33_apply, mean_spread_index, rowMean_apply]
  rfl

/-- The deviation from the row mean that the reference normalises: the same deviation, computed a second time. -/
theorem devNorm_apply (e : Fin 2000000) (k : Fin 64) :
    val_main_v41 (F := Ideal) x0 x1 x2 x3 x4 x5 x6 x7 (ix2 e k)
      = Cert.Spec.dev (fun k => val_main_v28 (F := Ideal) x0 x1 x2 x3 x4 x5 x6 x7 (ix2 e k)) k := by
  rw [val_main_v41_apply, val_main_v40_apply, mean_spread_index', rowMean_apply]
  rfl

/-- The column of reciprocal standard deviations at row `e`: `rsqrt` of the mean squared deviation plus the word for ε. -/
theorem rstd_apply (e : Fin 2000000) (u : Fin 1) :
    val_main_v44 (F := Ideal) x0 x1 x2 x3 x4 x5 x6 x7 (ix2 e u)
      = Cert.Spec.rstd (fun k => val_main_v28 (F := Ideal) x0 x1 x2 x3 x4 x5 x6 x7 (ix2 e k)) := by
  rw [val_main_v44_apply, val_main_v43_apply, val_main_v42_apply, val_main_cst_6_apply, val_main_v39_apply,
    val_main_v38_apply, val_main_cst_5_apply, val_main_v37_apply, sqsum_column_index, val_main_v36_apply,
    val_main_cst_4_apply]
  simp only [sqsum_index, val_main_v35_apply, devSq_apply, Ideal.hostUnary_rsqrt_def, Ideal.addf_def,
    Ideal.hostDivf_def, Ideal.mulf_def, Ideal.ofBits_def, Ideal.ofBits_zero_f32, zero_add]
  rfl

/-- The activated row at `(e, k)`: normalised, scaled, shifted, and cut off below at the word for 0.0. -/
theorem act_apply (e : Fin 2000000) (k : Fin 64) :
    val_main_v53 (F := Ideal) x0 x1 x2 x3 x4 x5 x6 x7 x8 x9 (ix2 e k)
      = Cert.Spec.act (fun k => val_main_v28 (F := Ideal) x0 x1 x2 x3 x4 x5 x6 x7 (ix2 e k))
          (fun k => x8 (ix1 k)) (fun k => x9 (ix1 k)) k := by
  rw [val_main_v53_apply, val_main_call0_v0_apply, val_main_call0_cst_apply, val_main_v52_apply, val_main_v51_apply,
    val_main_v50_apply, shift_index, val_main_v49_apply, val_main_v48_apply, val_main_v47_apply, scale_index,
    val_main_v46_apply, val_main_v45_apply, rstd_spread_index, rstd_apply, devNorm_apply]
  rfl

/-- The per-edge message at `(e, q)`: the per-edge transform of row `e` of the pre-activation. -/
theorem msg_apply (e : Fin 2000000) (q : Fin 64) :
    val_main_v58 (F := Ideal) x0 x1 x2 x3 x4 x5 x6 x7 x8 x9 x10 x11 (ix2 e q)
      = Cert.Spec.edgeRow (fun k => val_main_v28 (F := Ideal) x0 x1 x2 x3 x4 x5 x6 x7 (ix2 e k))
          (fun k => x8 (ix1 k)) (fun k => x9 (ix1 k)) (fun q' k => x10 (ix2 q' k)) (fun k => x11 (ix1 k)) q := by
  rw [val_main_v58_apply, val_main_v57_apply, val_main_v56_apply, final_bias_index, val_main_v55_apply,
    Ideal.addf_def]
  unfold Cert.Spec.edgeRow Cert.Spec.linRow
  refine congrArg (· + x11 (ix1 q)) (Finset.sum_congr rfl fun k _ => ?_)
  rw [final_lhs_index, act_apply, val_main_v54_apply, final_rhs_index]

end Cert.ReferenceIdeal.RefValue

end
-- ==== Proof.GatherFillRead.lean ====
/-
  The filling row lookup on row numbers that are in range: where a row number `w`, read signed, lies in
  `[-100000, 100000)`, its wrapped value lies in `[0, 99999]`, the range test passes, and the lookup's row is the
  plain gather's row at the wrapped numbers.
-/
import proofs.«404003_j32538672234882_3_alg».proof.Proof.GatherFill
import Idealize.ShloMosaic.Lib.ValueIdx
import Idealize.ShloMosaic.Lib.Pipeline.Value
import Idealize.ShloMosaic.Lib.ReduceAll
import Idealize.ShloMosaic.Lib.StableHlo.Predicate

noncomputable section

namespace Cert.KernelIdeal.GatherFill

open Cert.KernelIdeal Cert.KernelIdeal.Gen Idealize.ShloMosaic Idealize.ShloMosaic.ValueIdx

/-- Moving a negative word up by 100000 and keeping a non-negative one: a word that reads signed in
    `[-100000, 100000)` comes out reading in `[0, 99999]`. No addition here leaves the signed 32-bit range. -/
theorem wrap_word_range (w : BitVec 32) (h : -100000 ≤ w.toInt ∧ w.toInt < 100000) :
    0 ≤ (Scalar.select (IntOp.cmpi .slt w 0#32) (IntOp.addi w 100000#32) w).toInt
      ∧ (Scalar.select (IntOp.cmpi .slt w 0#32) (IntOp.addi w 100000#32) w).toInt ≤ 99999 := by
  have h0 : (0#32 : BitVec 32).toInt = 0 := by decide
  have hc : (100000#32 : BitVec 32).toInt = 100000 := by decide
  by_cases hneg : w.toInt < 0
  · -- negative: the test holds, the sum `w + 100000` is in `[0, 99999]` and does not wrap
    have ht : IntOp.cmpi .slt w 0#32 = 1#1 := IntOp.cmpi_slt.2 (by rw [h0]; exact hneg)
    rw [ht, select_one]
    have hs : (IntOp.addi w 100000#32).toInt = w.toInt + 100000 := by
      unfold IntOp.addi
      rw [BitVec.toInt_add, hc]
      exact Int.bmod_eq_of_le (by omega) (by omega)
    rw [hs]
    omega
  · -- non-negative: the test fails and the word is kept
    have ht : IntOp.cmpi .slt w 0#32 = 0#1 :=
      eq_zero_of_ne_one (fun hh => hneg (by have := IntOp.cmpi_slt.1 hh; rw [h0] at this; exact this))
    rw [ht, select_zero]
    omega

/-- The wrapped row number of edge `e` is the word-level wrap of the edge's own row number. -/
theorem wrapped_apply (idx : IVec S2000000 32) (j : S2000000.Idx) :
    wrapped idx j = Scalar.select (IntOp.cmpi .slt (idx j) 0#32) (IntOp.addi (idx j) 100000#32) (idx j) := rfl

/-- The start-index column at `(r, 0)` is the wrapped row number of edge `r`. -/
theorem column_apply (idx : IVec S2000000 32) (i : S2000000x1.Idx) : column idx i = wrapped idx (ix1 (i 0)) := by
  unfold column
  generalize wrapped idx = y
  -- the vector's axis has 2000000 entries, not one, so the column reads the vector at its own row coordinate
  exact broadcastInDim_apply ![0] bcast_S2000000_S2000000x1_0 y i (ix1 (i 0))
    (fun a => match a with
      | ⟨0, _⟩ => by show (i 0).val = if (2000000 : Nat) = 1 then 0 else (i 0).val; rw [if_neg (by decide)])

/-- An `and`-fold that starts at 1 and meets only 1s ends at 1. -/
theorem foldl_andi_one {ι : Type} (f : ι → BitVec 1) :
    ∀ (l : List ι) (init : BitVec 1), init = 1#1 → (∀ n ∈ l, f n = 1#1) → l.foldl (fun r n => IntOp.andi r (f n)) init = 1#1
  | [], _, hi, _ => hi
  | a :: l, init, hi, hl =>
    foldl_andi_one f l _ (IntOp.andi_eq_one.2 ⟨hi, hl a (List.mem_cons_self ..)⟩)
      (fun n hn => hl n (List.mem_cons_of_mem _ hn))

/-- The range test passes on an edge whose wrapped row number reads in `[0, 99999]`: the per-row reduction runs over
    the single column of that row, where both compares hold. -/
theorem inRange_eq_one (idx : IVec S2000000 32) (e : Fin 2000000)
    (hw : 0 ≤ (wrapped idx (ix1 e)).toInt ∧ (wrapped idx (ix1 e)).toInt ≤ 99999) : inRange idx (ix1 e) = 1#1 := by
  unfold inRange
  rw [Host.reduce_eq_foldl]
  refine foldl_andi_one _ _ _ rfl (fun i hi => ?_)
  -- an index that reduces into row `e` has row coordinate `e`
  have hd : reducesTo_S2000000x1_S2000000_d1.drop i = ix1 e := of_decide_eq_true (List.mem_filter.1 hi).2
  have hv : (i 0).val = e.val := by
    have h1 := reducesTo_S2000000x1_S2000000_d1.drop_apply_val_of_eq i 0 0
    rw [hd] at h1
    exact h1.symm
  have hi0 : i 0 = e := Fin.ext hv
  have hcol : column idx i = wrapped idx (ix1 e) := by rw [column_apply, hi0]
  have h0 : (0#32 : BitVec 32).toInt = 0 := by decide
  have hc : (99999#32 : BitVec 32).toInt = 99999 := by decide
  show IntOp.andi (IntOp.cmpi .sge (column idx i) 0#32) (IntOp.cmpi .sle (column idx i) 99999#32) = 1#1
  rw [hcol]
  exact IntOp.andi_eq_one.2 ⟨IntOp.cmpi_sge.2 (by rw [h0]; exact hw.1), IntOp.cmpi_sle.2 (by rw [hc]; exact hw.2)⟩

/-- On an edge whose row number is in `[-100000, 100000)`, the filling lookup IS the gather at the wrapped column. -/
theorem gatherFill_eq_gather (x : FVec Ideal S100000x64 .f32) (idx : IVec S2000000 32) (e : Fin 2000000) (q : Fin 64)
    (h : -100000 ≤ (idx (ix1 e)).toInt ∧ (idx (ix1 e)).toInt < 100000) :
    gatherFill (F := Ideal) x idx (ix2 e q)
      = Host.gather gather_S100000x64_S2000000x1_S2000000x64_1_0_n_n_0_1_164 x (column idx) (ix2 e q) := by
  -- the wrapped number is in the table's range, so the row's test bit is 1
  have hw : 0 ≤ (wrapped idx (ix1 e)).toInt ∧ (wrapped idx (ix1 e)).toInt ≤ 99999 := by
    rw [wrapped_apply]; exact wrap_word_range _ h
  have hbit : broadcastInDim S2000000x64 ![0] bcast_S2000000_S2000000x64_0 (inRange idx) (ix2 e q) = 1#1 := by
    rw [broadcastInDim_apply ![0] bcast_S2000000_S2000000x64_0 (inRange idx) (ix2 e q) (ix1 e)
      (fun a => match a with
        | ⟨0, _⟩ => by show e.val = if (2000000 : Nat) = 1 then 0 else e.val; rw [if_neg (by decide)])]
    exact inRange_eq_one idx e hw
  -- the select on a set bit takes the gathered row
  unfold gatherFill
  rw [select_apply, hbit, select_one]

end Cert.KernelIdeal.GatherFill

end
-- ==== Proof.LibRowGather.lean ====
/-
  A gather of whole rows, read at an index.

  What `x[idx]` of a matrix `x : [N, C]` at a vector of row numbers lowers to: a gather with offset axis 1, the
  collapsed slice axis 0, start index map `[0]`, slice sizes `[1, C]`, over the indices as a column `[R, 1]`.
  Result element `(r, q)` is `x` at row `idx[r, 0]` (read signed, clamped into `[0, N − 1]`) and column `q`: the
  gather selects whole rows, so any function applied row by row commutes with it.
-/
import Idealize.ShloMosaic.Lib.ValueIdx

noncomputable section

namespace Idealize.ShloMosaic.ValueIdx

section RowGather
variable {α : Type}

/-- Those dimension numbers for an operand `[N, C]`, start indices `[R, 1]` and result `[R, C]`. -/
abbrev rowGatherDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The operand row that result row `r` reads: its start index, read signed and clamped into `[0, N − 1]`. -/
def gatherRow {N R w : Nat} (hN : 0 < N) (idx : IVec ⟨2, ![R, 1]⟩ w) (r : Fin R) : Fin N :=
  ⟨min (idx (ix2 r (0 : Fin 1))).toInt.toNat (N - 1), by omega⟩

/-- THE ROW GATHER READ AT `(r, q)`: the operand at the row `r` reads and the same column. -/
theorem rowGather_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (q : Fin C) :
    Host.gather (rowGatherDims N R C wf) x idx (ix2 r q) = x (ix2 (gatherRow hN idx r) q) := by
  unfold Host.gather
  congr 1
  funext a
  refine Fin.ext ?_
  match a with
  | ⟨0, _⟩ =>
    show (rowGatherDims N R C wf).start (ix2 r q) idx 0 + (rowGatherDims N R C wf).batchCoord (ix2 r q) 0
      + (rowGatherDims N R C wf).offCoord (ix2 r q) 0 = min (idx (ix2 r (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N R C wf).startIndexMap from List.mem_singleton.mpr rfl)]
    have hsi : (rowGatherDims N R C wf).siIdx (ix2 r q) ⟨List.idxOf (0 : Fin 2) (rowGatherDims N R C wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowGatherDims N R C wf).start (ix2 r q) idx 1 + (rowGatherDims N R C wf).batchCoord (ix2 r q) 1
      + (rowGatherDims N R C wf).offCoord (ix2 r q) 1 = q.val
    have hmem : (1 : Fin 2) ∈ (rowGatherDims N R C wf).sKept :=
      (GatherDims.mem_sKept _ _).mpr ⟨show (1 : Fin 2) ∉ [(0 : Fin 2)] by decide, List.not_mem_nil⟩
    have hnot : (1 : Fin 2) ∉ (rowGatherDims N R C wf).startIndexMap := show (1 : Fin 2) ∉ [(0 : Fin 2)] by decide
    rw [GatherDims.batchCoord_eq_zero _ _ _ List.not_mem_nil]
    unfold GatherDims.start GatherDims.offCoord
    rw [dif_neg hnot, dif_pos hmem]
    simp only [Nat.zero_add]
    rfl

end RowGather

end Idealize.ShloMosaic.ValueIdx

end
-- ==== Proof.LibRowScatterAdd.lean ====
/-
  An accumulating scatter of whole rows, read at an index on the extended reals.

  `segment_sum(upd, idx)` of rows `upd : [R, C]` into `[N, C]` lowers to a scatter with an `add` body, update window
  axis 1, inserted window axis 0, the scatter index naming operand axis 0, over the indices as a column `[R, 1]`.
  Update element `(r, q')` lands on operand element `(idx[r, 0], q')` (the index read signed, NOT clamped; outside
  `[0, N)` the update is dropped). So element `(n, q)` of the result is the operand's plus the sum over the rows `r`
  whose index is `n` of `upd (r, q)`: columns never mix, which is why scattering rows laid side by side is scattering
  each part on its own.
-/
import Idealize.ShloMosaic.Lib.ValueIdx
import Idealize.ShloMosaic.PureOps.Ideal.Laws

noncomputable section

namespace Idealize.ShloMosaic.ValueIdx

section RowScatterAdd

/-- Those dimension numbers for an operand `[N, C]`, scatter indices `[R, 1]` and updates `[R, C]`. -/
abbrev rowScatterDims (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- Operand axis 1 is not an inserted window axis: it is the one axis the update window runs over. -/
theorem rs_mem_sKept {N R C : Nat}
    (wf : ScatterDims.WF ⟨2, ![N, C]⟩ ⟨2, ![R, 1]⟩ ⟨2, ![R, C]⟩ [1] [0] [0] 1) :
    (1 : Fin 2) ∈ (rowScatterDims N R C wf).sKept := by
  show (1 : Fin 2) ∈ (List.finRange 2).filter (fun a => a ∉ [(0 : Fin 2)])
  decide

/-- Operand axis 0 is the inserted window axis. -/
theorem rs_not_mem_sKept {N R C : Nat}
    (wf : ScatterDims.WF ⟨2, ![N, C]⟩ ⟨2, ![R, 1]⟩ ⟨2, ![R, C]⟩ [1] [0] [0] 1) :
    (0 : Fin 2) ∉ (rowScatterDims N R C wf).sKept := by
  show (0 : Fin 2) ∉ (List.finRange 2).filter (fun a => a ∉ [(0 : Fin 2)])
  decide

/-- On operand axis 0 the window coordinate is `0`. -/
theorem rs_window0 {N R C : Nat}
    (wf : ScatterDims.WF ⟨2, ![N, C]⟩ ⟨2, ![R, 1]⟩ ⟨2, ![R, C]⟩ [1] [0] [0] 1) (r : Fin R) (q' : Fin C) :
    (rowScatterDims N R C wf).window (ix2 r q') 0 = 0 := by
  unfold ScatterDims.window
  rw [dif_neg (rs_not_mem_sKept wf)]

/-- On operand axis 1 the window coordinate is the update's column `q'`. -/
theorem rs_window1 {N R C : Nat}
    (wf : ScatterDims.WF ⟨2, ![N, C]⟩ ⟨2, ![R, 1]⟩ ⟨2, ![R, C]⟩ [1] [0] [0] 1) (r : Fin R) (q' : Fin C) :
    (rowScatterDims N R C wf).window (ix2 r q') 1 = q'.val := by
  unfold ScatterDims.window
  rw [dif_pos (rs_mem_sKept wf)]
  rfl

/-- On operand axis 1, which the scatter index does not name, the window starts at `0`. -/
theorem rs_start1 {N R C w : Nat}
    (wf : ScatterDims.WF ⟨2, ![N, C]⟩ ⟨2, ![R, 1]⟩ ⟨2, ![R, C]⟩ [1] [0] [0] 1)
    (idx : IVec ⟨2, ![R, 1]⟩ w) (r : Fin R) (q' : Fin C) :
    (rowScatterDims N R C wf).start (ix2 r q') idx 1 = 0 := by
  unfold ScatterDims.start
  rw [dif_neg (show (1 : Fin 2) ∉ [(0 : Fin 2)] by decide)]

/-- On operand axis 0 the window starts at row `r`'s index `idx[r, 0]`, read signed. -/
theorem rs_start0 {N R C w : Nat}
    (wf : ScatterDims.WF ⟨2, ![N, C]⟩ ⟨2, ![R, 1]⟩ ⟨2, ![R, C]⟩ [1] [0] [0] 1)
    (idx : IVec ⟨2, ![R, 1]⟩ w) (r : Fin R) (q' : Fin C) :
    (rowScatterDims N R C wf).start (ix2 r q') idx 0 = (idx (ix2 r (0 : Fin 1))).toInt := by
  unfold ScatterDims.start
  rw [dif_pos (show (0 : Fin 2) ∈ (rowScatterDims N R C wf).scatterDimsToOperandDims from List.mem_singleton.mpr rfl)]
  have hsi : (rowScatterDims N R C wf).siIdx (ix2 r q') ⟨List.idxOf (0 : Fin 2) (rowScatterDims N R C wf).scatterDimsToOperandDims,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]

/-- Update element `(r, q')` lands on `(n, q)` iff row `r`'s index, read signed, is `n`, and the columns agree. -/
theorem rowScatter_resultIdx_iff {N R C w : Nat}
    (wf : ScatterDims.WF ⟨2, ![N, C]⟩ ⟨2, ![R, 1]⟩ ⟨2, ![R, C]⟩ [1] [0] [0] 1)
    (idx : IVec ⟨2, ![R, 1]⟩ w) (r : Fin R) (q' : Fin C) (n : Fin N) (q : Fin C) :
    (rowScatterDims N R C wf).resultIdx? (ix2 r q') idx = some (ix2 n q)
      ↔ (idx (ix2 r (0 : Fin 1))).toInt = (n.val : Int) ∧ q' = q := by
  unfold ScatterDims.resultIdx?
  have hN : (![N, C] 0 : Nat) = N := rfl
  have hC : (![N, C] 1 : Nat) = C := rfl
  have hn := n.isLt
  have hq' := q'.isLt
  simp only [Fin.forall_fin_two, rs_start0, rs_start1, rs_window0, rs_window1]
  split
  · rw [Option.some.injEq]
    constructor
    · intro he
      have e0 : ((rowScatterDims N R C wf).start (ix2 r q') idx 0
          + ((rowScatterDims N R C wf).window (ix2 r q') 0 : Nat)).toNat = n.val :=
        congrArg (fun f => (f 0).val) he
      have e1 : ((rowScatterDims N R C wf).start (ix2 r q') idx 1
          + ((rowScatterDims N R C wf).window (ix2 r q') 1 : Nat)).toNat = q.val :=
        congrArg (fun f => (f 1).val) he
      rw [rs_start0, rs_window0] at e0
      rw [rs_start1, rs_window1] at e1
      exact ⟨by omega, Fin.ext (by omega)⟩
    · rintro ⟨e0, e1⟩
      funext a
      refine Fin.ext ?_
      match a with
      | ⟨0, _⟩ =>
        show ((rowScatterDims N R C wf).start (ix2 r q') idx 0
          + ((rowScatterDims N R C wf).window (ix2 r q') 0 : Nat)).toNat = n.val
        rw [rs_start0, rs_window0]; omega
      | ⟨1, _⟩ =>
        show ((rowScatterDims N R C wf).start (ix2 r q') idx 1
          + ((rowScatterDims N R C wf).window (ix2 r q') 1 : Nat)).toNat = q.val
        rw [rs_start1, rs_window1, e1]; omega
  · rename_i h
    constructor
    · intro he; cases he
    · rintro ⟨e0, e1⟩
      exact absurd ⟨⟨by omega, by omega⟩, by omega, by omega⟩ h

/-- THE ROW SCATTER-ADD READ AT `(n, q)` on the extended reals: the operand's element plus the sum, over the rows whose
    index is `n`, of the update's element in column `q`. -/
theorem rowScatterAdd_apply {N R C w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w)
    (upd : (⟨2, ![R, C]⟩ : Shape).Idx → EReal) (n : Fin N) (q : Fin C) :
    Ideal.hostScatterAdd (rowScatterDims N R C wf) x idx upd (ix2 n q)
      = x (ix2 n q) + ∑ r : Fin R, if (idx (ix2 r (0 : Fin 1))).toInt = (n.val : Int) then upd (ix2 r q) else 0 := by
  show x (ix2 n q) + ∑ j ∈ Finset.univ.filter
      (fun j => (rowScatterDims N R C wf).resultIdx? j idx = some (ix2 n q)), upd j = _
  congr 1
  rw [Finset.sum_filter, sum_idx2]
  refine Finset.sum_congr rfl (fun r _ => ?_)
  simp only [rowScatter_resultIdx_iff]
  by_cases h : (idx (ix2 r (0 : Fin 1))).toInt = (n.val : Int)
  · simp only [h, true_and, if_true]
    rw [Finset.sum_ite_eq' Finset.univ q (fun q' => upd (ix2 r q')), if_pos (Finset.mem_univ q)]
  · simp only [h, false_and, if_false, Finset.sum_const_zero]

end RowScatterAdd

end Idealize.ShloMosaic.ValueIdx

end
-- ==== Proof.LibScatterLocal.lean ====
/-
  Two general reads on the extended reals.

  An accumulating float scatter reads an update element only if that element lands inside the operand: the result at
  an operand index is the operand's element plus the sum of the updates landing there, so two update arrays that agree
  on every element that lands somewhere give the same result. (Rows whose scatter index is out of range are dropped,
  whatever they hold.)

  A vector `[b]` reshaped to the row `[1, b]` reads, at `(0, j)`, the vector at `j`.
-/
import Idealize.ShloMosaic.PureOps.Ideal
import Idealize.ShloMosaic.PureOps.Contract
import Idealize.ShloMosaic.Lib.ValueIdx
import Idealize.ShloMosaic.Lib.Pipeline.Value

noncomputable section

namespace Idealize.ShloMosaic.ValueIdx

open Idealize.ShloMosaic

/-- The host's accumulating scatter depends on the updates only through the elements that land inside the operand. -/
theorem scatterAdd_congr_of_landing {s si u : Shape} {w : Nat} {φ : FTy} (d : ScatterDims s si u)
    (x : FVec Ideal s φ) (idx : IVec si w) (upd upd' : FVec Ideal u φ)
    (h : ∀ (j : u.Idx) (i : s.Idx), d.resultIdx? j idx = some i → upd j = upd' j) :
    Host.scatterAdd d x idx upd = Host.scatterAdd d x idx upd' := by
  funext i
  show Ideal.hostScatterAdd d x idx upd i = Ideal.hostScatterAdd d x idx upd' i
  unfold Ideal.hostScatterAdd
  exact congrArg (x i + ·) (Finset.sum_congr rfl fun j hj => h j i (Finset.mem_filter.mp hj).2)

/-- A `[b]` vector reshaped to the row `[1, b]` reads, at `(u, j)`, the vector at `j`. -/
theorem shapeCast_b_1b_apply {α : Type} {b : ℕ} (x : (⟨1, ![b]⟩ : Shape).Idx → α)
    (h : (⟨1, ![b]⟩ : Shape).ShapeCasts ⟨2, ![1, b]⟩) (u : Fin 1) (j : Fin b) :
    shapeCast ⟨2, ![1, b]⟩ x h (ix2 u j) = x (ix1 j) :=
  shapeCast_apply x h _ _ (by
    have hu : u.val = 0 := by omega
    rw [Shape.rowMajor_val_two, Shape.rowMajor_val_one]
    show j.val = u.val * b + j.val
    rw [hu, Nat.zero_mul, Nat.zero_add])

end Idealize.ShloMosaic.ValueIdx

end
-- ==== Proof.Bridge.lean ====
/-
  The two programs' results are one function of the arguments.

  Both end in the same accumulating scatter of per-edge messages onto the target nodes. A message row is read by the
  scatter only if its target number, read signed, lies in `[0, 100000)`; on such an edge the target lookup is in
  range, the source lookup is in range by the precondition, so the filling row lookup is the plain gather on both,
  the two pre-activation rows agree — the kernel adds (target row + source row) + edge term, the reference
  (target row + edge term) + source row, the same sum — and so do the messages, which are one function of that row.
  Rows with an out-of-range target number may differ between the programs; the scatter drops them on both sides.
-/
import proofs.«404003_j32538672234882_3_alg».proof.Proof.Gen.ReferenceIdeal.Read
import proofs.«404003_j32538672234882_3_alg».proof.Proof.RefValue
import proofs.«404003_j32538672234882_3_alg».proof.Proof.GatherFillRead
import proofs.«404003_j32538672234882_3_alg».proof.Proof.EdgeIdx
import proofs.«404003_j32538672234882_3_alg».proof.Proof.Spec
import proofs.«404003_j32538672234882_3_alg».proof.Proof.LibRowGather
import proofs.«404003_j32538672234882_3_alg».proof.Proof.LibRowScatterAdd
import proofs.«404003_j32538672234882_3_alg».proof.Proof.LibKeepdims
import proofs.«404003_j32538672234882_3_alg».proof.Proof.LibScatterLocal

noncomputable section

namespace Cert.Proof.Bridge

open Idealize.ShloMosaic Idealize.ShloMosaic.ValueIdx
open Cert.KernelIdeal Cert.KernelIdeal.Gen Cert.KernelIdeal.GatherFill Cert.KernelIdeal.EdgeIdx
open Cert.ReferenceIdeal.Read Cert.ReferenceIdeal.RefValue

variable (x0 x1 : FVec Ideal S100000x64 .f32) (x2 : FVec Ideal S2000000x2 .f32) (x3 : IVec S2x2000000 32)
  (x4 : FVec Ideal S64x64 .f32) (x5 : FVec Ideal S64 .f32) (x6 : FVec Ideal S64x2 .f32) (x7 : FVec Ideal S64x64 .f32)
  (x8 x9 : FVec Ideal S64 .f32) (x10 : FVec Ideal S64x64 .f32) (x11 : FVec Ideal S64 .f32)

/-- The edge features through their linear layer (the same host product in both programs). -/
abbrev edgeTerm : FVec Ideal S2000000x64 .f32 :=
  Host.dotGeneral dot_S2000000x2_S2x64_S2000000x64_1_0_0_1_n_n none x2 (transpose S2x64 [1, 0] x6 transposes_S64x2_S2x64_1_0)

/-- The kernel program's pre-activation, over its two projected tables. -/
def preK (PI PJ : FVec Ideal S100000x64 .f32) : FVec Ideal S2000000x64 .f32 :=
  addf (addf (gatherFill PI (dstIdx x3)) (gatherFill PJ (srcIdx x3))) (edgeTerm x2 x6)

/-- The table row an edge's lookup reads, from the wrapped column of row numbers. -/
abbrev rowAt (idx : IVec S2000000 32) (e : Fin 2000000) : Fin 100000 :=
  gatherRow (N := 100000) (by decide) (column idx) e

/-- ON AN EDGE WHOSE TWO ROW NUMBERS ARE IN RANGE the kernel's pre-activation row is the reference's. -/
theorem preK_apply (PI PJ : FVec Ideal S100000x64 .f32)
    (hPI : ∀ (r : Fin 100000) (q : Fin 64), PI (ix2 r q) = val_main_v8 (F := Ideal) x1 x4 x5 (ix2 r q))
    (hPJ : ∀ (r : Fin 100000) (q : Fin 64), PJ (ix2 r q) = val_main_v17 (F := Ideal) x0 x7 (ix2 r q))
    (e : Fin 2000000) (k : Fin 64)
    (hd : -100000 ≤ (x3 (ix2 (1 : Fin 2) e)).toInt ∧ (x3 (ix2 (1 : Fin 2) e)).toInt < 100000)
    (hs : -100000 ≤ (x3 (ix2 (0 : Fin 2) e)).toInt ∧ (x3 (ix2 (0 : Fin 2) e)).toInt < 100000) :
    preK x2 x3 x6 PI PJ (ix2 e k) = val_main_v28 (F := Ideal) x0 x1 x2 x3 x4 x5 x6 x7 (ix2 e k) := by
  have gI : gatherFill (F := Ideal) PI (dstIdx x3) (ix2 e k) = PI (ix2 (rowAt (dstIdx x3) e) k) :=
    (gatherFill_eq_gather PI (dstIdx x3) e k (by rw [dstIdx_apply]; exact hd)).trans
      (rowGather_apply (by decide) gather_S100000x64_S2000000x1_S2000000x64_1_0_n_n_0_1_164.wf PI (column (dstIdx x3)) e k)
  have gJ : gatherFill (F := Ideal) PJ (srcIdx x3) (ix2 e k) = PJ (ix2 (rowAt (srcIdx x3) e) k) :=
    (gatherFill_eq_gather PJ (srcIdx x3) e k (by rw [srcIdx_apply]; exact hs)).trans
      (rowGather_apply (by decide) gather_S100000x64_S2000000x1_S2000000x64_1_0_n_n_0_1_164.wf PJ (column (srcIdx x3)) e k)
  have rI : val_main_v15 (F := Ideal) x1 x3 x4 x5 (ix2 e k) = val_main_v8 (F := Ideal) x1 x4 x5 (ix2 (rowAt (dstIdx x3) e) k) :=
    rowGather_apply (by decide) gather_S100000x64_S2000000x1_S2000000x64_1_0_n_n_0_1_164.wf (val_main_v8 (F := Ideal) x1 x4 x5) (column (dstIdx x3)) e k
  have rJ : val_main_v24 (F := Ideal) x0 x3 x7 (ix2 e k) = val_main_v17 (F := Ideal) x0 x7 (ix2 (rowAt (srcIdx x3) e) k) :=
    rowGather_apply (by decide) gather_S100000x64_S2000000x1_S2000000x64_1_0_n_n_0_1_164.wf (val_main_v17 (F := Ideal) x0 x7) (column (srcIdx x3)) e k
  have rE : val_main_v26 (F := Ideal) x2 x6 (ix2 e k) = edgeTerm x2 x6 (ix2 e k) := rfl
  unfold preK
  rw [addf_apply, addf_apply, gI, gJ, hPI, hPJ, val_main_v28_apply, val_main_v27_apply, Ideal.addf_def, Ideal.addf_def, rI, rJ, rE]
  exact add_right_comm _ _ _

/-- The scatter's dimension numbers are those of a row scatter. -/
theorem scatter_eq : scatter_S100000x64_S2000000x1_S2000000x64_1_0_0_1
    = rowScatterDims 100000 2000000 64 scatter_S100000x64_S2000000x1_S2000000x64_1_0_0_1.wf := rfl

/-- The zero table both programs accumulate onto. -/
abbrev zeros : FVec Ideal S100000x64 .f32 :=
  broadcastInDim S100000x64 ![] bcast_S_S100000x64 (constant (F := Ideal) S_ .f32 0x00000000#32)

/-- The target row numbers as a column: the scatter's indices in both programs. -/
abbrev dstCol : IVec S2000000x1 32 := broadcastInDim S2000000x1 ![0] bcast_S2000000_S2000000x1_0 (dstIdx x3)

/-- The reference's result is the accumulating row scatter of its messages at the target column. -/
theorem ref_result : val_main_v61 (F := Ideal) x0 x1 x2 x3 x4 x5 x6 x7 x8 x9 x10 x11
    = Host.scatterAdd (rowScatterDims 100000 2000000 64 scatter_S100000x64_S2000000x1_S2000000x64_1_0_0_1.wf)
        zeros (dstCol x3) (val_main_v58 (F := Ideal) x0 x1 x2 x3 x4 x5 x6 x7 x8 x9 x10 x11) := rfl

/-- Edge `e`'s entry of the target column is the edge list's entry `(1, e)`. -/
theorem dstCol_apply (e : Fin 2000000) : dstCol x3 (ix2 e (0 : Fin 1)) = x3 (ix2 (1 : Fin 2) e) :=
  (Cert.LibKeepdims.broadcastInDim_a_a1_apply (dstIdx x3) bcast_S2000000_S2000000x1_0 e 0).trans (dstIdx_apply x3 e)

/-- An update that lands has its edge's target number in `[0, 100000)`. -/
theorem landing_range (e : Fin 2000000) (q : Fin 64) (i : S100000x64.Idx)
    (h : (rowScatterDims 100000 2000000 64 scatter_S100000x64_S2000000x1_S2000000x64_1_0_0_1.wf).resultIdx? (ix2 e q) (dstCol x3) = some i) :
    -100000 ≤ (x3 (ix2 (1 : Fin 2) e)).toInt ∧ (x3 (ix2 (1 : Fin 2) e)).toInt < 100000 := by
  obtain ⟨n, q', rfl⟩ : ∃ (n : Fin 100000) (q' : Fin 64), i = ix2 n q' := ⟨i 0, i 1, eq_ix2 i⟩
  have h1 := ((rowScatter_resultIdx_iff scatter_S100000x64_S2000000x1_S2000000x64_1_0_0_1.wf (dstCol x3) e q n q').mp h).1
  rw [dstCol_apply] at h1
  have hn := n.isLt
  omega

/-- THE RESULTS AGREE: the accumulating scatter of the kernel's messages `M` is the reference's result, when `M` is
    the per-edge transform of the kernel's pre-activation and every source row number is in range. -/
theorem result_eq (PI PJ : FVec Ideal S100000x64 .f32)
    (hPI : ∀ (r : Fin 100000) (q : Fin 64), PI (ix2 r q) = val_main_v8 (F := Ideal) x1 x4 x5 (ix2 r q))
    (hPJ : ∀ (r : Fin 100000) (q : Fin 64), PJ (ix2 r q) = val_main_v17 (F := Ideal) x0 x7 (ix2 r q))
    (M : FVec Ideal S2000000x64 .f32)
    (hM : ∀ (e : Fin 2000000) (q : Fin 64), M (ix2 e q)
      = Cert.Spec.edgeRow (fun k => preK x2 x3 x6 PI PJ (ix2 e k)) (fun k => x8 (ix1 k)) (fun k => x9 (ix1 k))
          (fun q' k => x10 (ix2 q' k)) (fun k => x11 (ix1 k)) q)
    (hsrc : ∀ e : Fin 2000000, -100000 ≤ (x3 (ix2 (0 : Fin 2) e)).toInt ∧ (x3 (ix2 (0 : Fin 2) e)).toInt < 100000) :
    Host.scatterAdd scatter_S100000x64_S2000000x1_S2000000x64_1_0_0_1 zeros (dstCol x3) M
      = val_main_v61 (F := Ideal) x0 x1 x2 x3 x4 x5 x6 x7 x8 x9 x10 x11 := by
  rw [ref_result]
  show Host.scatterAdd (rowScatterDims 100000 2000000 64 scatter_S100000x64_S2000000x1_S2000000x64_1_0_0_1.wf) zeros (dstCol x3) M = _
  refine scatterAdd_congr_of_landing _ zeros (dstCol x3) M _ fun j i hji => ?_
  obtain ⟨e, q, rfl⟩ : ∃ (e : Fin 2000000) (q : Fin 64), j = ix2 e q := ⟨j 0, j 1, eq_ix2 j⟩
  have hd := landing_range x3 e q i hji
  rw [hM e q, msg_apply]
  exact congrArg (fun h => Cert.Spec.edgeRow h (fun k => x8 (ix1 k)) (fun k => x9 (ix1 k)) (fun q' k => x10 (ix2 q' k)) (fun k => x11 (ix1 k)) q)
    (funext fun k => preK_apply x0 x1 x2 x3 x4 x5 x6 x7 PI PJ hPI hPJ e k hd (hsrc e))

end Cert.Proof.Bridge

end
-- ==== Proof.KernelResult.lean ====
/-
  The kernel program's result buffer, as the reference's function of the arguments.

  Reading the run back: the result is the accumulating scatter, at the target column, of launch 2's output array;
  that array is the per-edge transform of the pre-activation launch 2 finds, which the host built from launch 0's and
  launch 1's output arrays — the two projections of the node features (launch 1's bias row is zero) — by the filling
  row lookups and the edge term. Under the precondition every source row number is in range, and the bridge applies.
-/
import proofs.«404003_j32538672234882_3_alg».proof.Proof.HostChain
import proofs.«404003_j32538672234882_3_alg».proof.Proof.ProjValue
import proofs.«404003_j32538672234882_3_alg».proof.Proof.EdgeValue
import proofs.«404003_j32538672234882_3_alg».proof.Proof.PreRange
import proofs.«404003_j32538672234882_3_alg».proof.Proof.Bridge

noncomputable section

namespace Cert.Proof.KernelResult

open Idealize.ShloMosaic Idealize.ShloMosaic.ValueIdx Idealize.ShloMosaic.TcCoe Idealize.SL.Sem
open Cert.KernelIdeal Cert.KernelIdeal.Gen Cert.KernelIdeal.GatherFill Cert.KernelIdeal.EdgeIdx Cert.KernelIdeal.HostChain
open Cert.ReferenceIdeal.Read Cert.ReferenceIdeal.RefValue

variable (m : (ℓ : Loc nD τ sig) → Buf (Elt Ideal) ℓ) (ρ : Dev nD → PrngReg) (c : Dev nD)

/-- Launch 0's output array is the reference's projected right-hand node features, entry by entry. -/
theorem projI_eq (r : Fin 100000) (q : Fin 64) :
    projI m ρ c (ix2 r q) = val_main_v8 (F := Ideal) (a1 m c) (a4 m c) (a5 m c) (ix2 r q) := by
  rw [projI_apply]
  refine (Cert.KernelIdeal.ProjValue.final0 (V1 m ρ) c r q).trans ?_
  rw [entry0_x, entry0_w, entry0_b, shapeCast_b_1b_apply]

/-- Launch 1's output array is the reference's projected left-hand node features: its bias row is zero. -/
theorem projJ_eq (r : Fin 100000) (q : Fin 64) :
    projJ m ρ c (ix2 r q) = val_main_v17 (F := Ideal) (a0 m c) (a7 m c) (ix2 r q) := by
  rw [projJ_apply]
  refine (Cert.KernelIdeal.ProjValue.final1 (V2 m ρ) c r q).trans ?_
  rw [entry1_x, entry1_w, entry1_b, Cert.LibKeepdims.broadcastInDim_scalar_apply, constant_apply, Ideal.ofBits_zero_f32, add_zero]

/-- Launch 2's output array is the per-edge transform of the kernel's pre-activation. -/
theorem msgs_eq (e : Fin 2000000) (q : Fin 64) :
    msgs m ρ c (ix2 e q)
      = Cert.Spec.edgeRow (fun k => Cert.Proof.Bridge.preK (a2 m c) (a3 m c) (a6 m c) (projI m ρ c) (projJ m ρ c) (ix2 e k))
          (fun k => a8 m c (ix1 k)) (fun k => a9 m c (ix1 k)) (fun q' k => a10 m c (ix2 q' k)) (fun k => a11 m c (ix1 k)) q := by
  refine (Cert.KernelIdeal.EdgeValue.final2 (V7 m ρ) c e q).trans ?_
  rw [entry2_h, entry2_g, entry2_b, entry2_w, entry2_bf]
  simp only [shapeCast_b_1b_apply]
  rfl

/-- THE KERNEL PROGRAM'S RESULT is the reference's result stage of the same arguments, under the precondition. -/
theorem result_eq (hpre : Cert.Pre_KernelIdeal (hPre_finite_inputs := Cert.Pre_finite_inputs.Gen.facts) m) :
    W9 m ρ c (Proc.devRef .tc main_v20)
      = val_main_v61 (F := Ideal) (a0 m c) (a1 m c) (a2 m c) (a3 m c) (a4 m c) (a5 m c) (a6 m c) (a7 m c) (a8 m c) (a9 m c) (a10 m c) (a11 m c) := by
  rw [HostChain.result]
  exact Cert.Proof.Bridge.result_eq (a0 m c) (a1 m c) (a2 m c) (a3 m c) (a4 m c) (a5 m c) (a6 m c) (a7 m c) (a8 m c) (a9 m c) (a10 m c) (a11 m c)
    (projI m ρ c) (projJ m ρ c) (projI_eq m ρ c) (projJ_eq m ρ c) (msgs m ρ c) (msgs_eq m ρ c)
    (fun e => Cert.PreRange.src_range (hPre := Cert.Pre_finite_inputs.Gen.facts) m hpre c e)

end Cert.Proof.KernelResult

end
-- ==== Proof.lean ====
/-
  Bipartite message passing: two node projections, a per-edge LayerNorm / ReLU / linear transform, and an
  accumulation of the per-edge messages onto the target nodes — the kernel program (three kernel launches among host
  gathers and a host scatter) against its plain reference, over the extended reals.

  The three frames: the two kernel programs' are their generated frames; the reference's is its generated run with
  the result dropped. The idealization rewrote nothing, so `preserves` is trivial. The value claim: the kernel
  program's run leaves its result buffer at the last host stretch's contents (the run with the result named), which is
  the reference's result stage of the same arguments under the precondition (`Cert.Proof.KernelResult.result_eq`): the
  two projections are the reference's products, the per-edge launch is the reference's transform row by row, a row
  lookup that fills out-of-range rows is the reference's plain gather wherever the row number is in range — the
  source numbers by the precondition, the target numbers because the final scatter reads a message row only when its
  target number lands inside the table.
-/
import proofs.«404003_j32538672234882_3_alg».proof.Defs
import proofs.«404003_j32538672234882_3_alg».proof.Proof.Gen.Kernel
import proofs.«404003_j32538672234882_3_alg».proof.Proof.Gen.Kernel.Frame
import proofs.«404003_j32538672234882_3_alg».proof.Proof.Gen.KernelIdeal
import proofs.«404003_j32538672234882_3_alg».proof.Proof.Gen.KernelIdeal.Frame
import proofs.«404003_j32538672234882_3_alg».proof.Proof.Gen.ReferenceIdeal
import proofs.«404003_j32538672234882_3_alg».proof.Proof.Gen.ReferenceIdeal.Run
import proofs.«404003_j32538672234882_3_alg».proof.Proof.Gen.ReferenceIdeal.Read
import proofs.«404003_j32538672234882_3_alg».proof.Proof.Gen.Pre_finite_inputs
import proofs.«404003_j32538672234882_3_alg».proof.Proof.KernelRun
import proofs.«404003_j32538672234882_3_alg».proof.Proof.KernelResult
import Idealize.ShloMosaic.Adequacy
import Idealize.ShloMosaic.Init

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs run from memories agreeing on the arguments and end with equal results: the kernel program's result
    buffer is the reference's result stage of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Gen.W9 m ρ c (Proc.devRef .tc Cert.KernelIdeal.main_v20),
    Cert.KernelIdeal.Run.run_main (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v61_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]
  exact (Cert.Proof.KernelResult.result_eq m ρ c hpre).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
